-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg15 : FVec F S512x1 .f32) (main_arg16 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x1 .f32 := Host.absf main_arg15
  let main_cst_20 : FVec F S_ .f32 := constant S_ .f32 0x7F800000#32
  let main_v55 : FVec F S512x1 .f32 := broadcastInDim S512x1 ![] bcast_S_S512x1 main_cst_20
  let main_v56 : IVec S512x1 1 := cmpf .olt main_v54 main_v55
  let main_c_21 : IVec S_ 1 := constantI S_ 1 1#1
  let main_v57 : IVec S_ 1 := (fun x v => Host.reduce IntOp.andi x v reducesTo_S512x1_S_d0_1 h_S_) main_v56 main_c_21
  let main_v58 : IVec S_ 1 := andi main_v53 main_v57
  let main_v59 : FVec F S1 .f32 := Host.absf main_arg16
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg11 : FVec F S1024x512 .f32) (main_arg12 : FVec F S512 .f32) (main_arg13 : FVec F S512x512 .f32) (main_arg14 : FVec F S512 .f32) (main_arg15 : FVec F S512x1 .f32) (main_arg16 : FVec F S1 .f32) (main_v33 : IVec S_ 1) : IVec S_ 1 :=
  let main_v34 : FVec F S1024x512 .f32 := Host.absf main_arg11
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg12
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg13
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg14
  let main_cst_18 : FVec F S_ .f32 := constant S_ .f32 0x7F800000#32
  let main_v50 : FVec F S512 .f32 := broadcastInDim S512 ![] bcast_S_S512 main_cst_18
  fn_part3 (F := F) main_arg15 main_arg16 main_v48 main_v49 main_v50

def fn_part1 {F : FTy → Type} [FloatOps F] (main_arg8 : FVec F S512 .f32) (main_arg9 : FVec F S512x512 .f32) (main_arg10 : FVec F S512 .f32) (main_arg11 : FVec F S1024x512 .f32) (main_arg12 : FVec F S512 .f32) (main_arg13 : FVec F S512x512 .f32) (main_arg14 : FVec F S512 .f32) (main_arg15 : FVec F S512x1 .f32) (main_arg16 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg8
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg9
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg10
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : FVec F S100000x512 .f32) (main_arg1 : IVec S100000 32) (main_arg2 : IVec S100000 32) (main_arg3 : IVec S100000 32) (main_arg4 : IVec S100000 32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S1024x512 .f32) (main_arg12 : FVec F S512 .f32) (main_arg13 : FVec F S512x512 .f32) (main_arg14 : FVec F S512 .f32) (main_arg15 : FVec F S512x1 .f32) (main_arg16 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg5
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg6
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg7
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg8 main_arg9 main_arg10 main_arg11 main_arg12 main_arg13 main_arg14 main_arg15 main_arg16 main_v13 main_v16
-- ==== Kernel.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x512 : Shape := ⟨2, ![1, 512]⟩
abbrev S2000x512 : Shape := ⟨2, ![2000, 512]⟩
abbrev S1x1 : Shape := ⟨2, ![1, 1]⟩
abbrev S_ : Shape := ⟨0, ![]⟩
abbrev S100000x1 : Shape := ⟨2, ![100000, 1]⟩
abbrev S2000x1 : Shape := ⟨2, ![2000, 1]⟩

abbrev nBuf : Space → Nat
  | .hbm => 73
  | .vmem => 36
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S100000, .i32⟩
  | .hbm, ⟨3, _⟩ => ⟨S100000, .i32⟩
  | .hbm, ⟨4, _⟩ => ⟨S100000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S1024x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x1, .f32⟩
  | .hbm, ⟨16, _⟩ => ⟨S1, .f32⟩
  | .hbm, ⟨17, _⟩ => ⟨S512x512, .bf16⟩
  | .hbm, ⟨18, _⟩ => ⟨S512x512, .bf16⟩
  | .hbm, ⟨19, _⟩ => ⟨S512x512, .bf16⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S100000x512, .bf16⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .bf16⟩
  | .hbm, ⟨28, _⟩ => ⟨S1x512, .f32⟩
  | .hbm, ⟨29, _⟩ => ⟨S512x512, .bf16⟩
  | .hbm, ⟨30, _⟩ => ⟨S1x512, .f32⟩
  | .hbm, ⟨31, _⟩ => ⟨S512x1, .bf16⟩
  | .hbm, ⟨32, _⟩ => ⟨S1x1, .f32⟩
  | .hbm, ⟨33, _⟩ => ⟨S_, .i32⟩
  | .hbm, ⟨34, _⟩ => ⟨S100000, .i32⟩
  | .hbm, ⟨35, _⟩ => ⟨S100000, .i1⟩
  | .hbm, ⟨36, _⟩ => ⟨S_, .i32⟩
  | .hbm, ⟨37, _⟩ => ⟨S100000, .i32⟩
  | .hbm, ⟨38, _⟩ => ⟨S100000, .i32⟩
  | .hbm, ⟨39, _⟩ => ⟨S100000, .i32⟩
  | .hbm, ⟨40, _⟩ => ⟨S100000x1, .i32⟩
  | .hbm, ⟨41, _⟩ => ⟨S100000x512, .bf16⟩
  | .hbm, ⟨42, _⟩ => ⟨S_, .i32⟩
  | .hbm, ⟨43, _⟩ => ⟨S100000, .i32⟩
  | .hbm, ⟨44, _⟩ => ⟨S100000, .i1⟩
  | .hbm, ⟨45, _⟩ => ⟨S_, .i32⟩
  | .hbm, ⟨46, _⟩ => ⟨S100000, .i32⟩
  | .hbm, ⟨47, _⟩ => ⟨S100000, .i32⟩
  | .hbm, ⟨48, _⟩ => ⟨S100000, .i32⟩
  | .hbm, ⟨49, _⟩ => ⟨S100000x1, .i32⟩
  | .hbm, ⟨50, _⟩ => ⟨S100000x512, .bf16⟩
  | .hbm, ⟨51, _⟩ => ⟨S_, .i32⟩
  | .hbm, ⟨52, _⟩ => ⟨S100000, .i32⟩
  | .hbm, ⟨53, _⟩ => ⟨S100000, .i1⟩
  | .hbm, ⟨54, _⟩ => ⟨S_, .i32⟩
  | .hbm, ⟨55, _⟩ => ⟨S100000, .i32⟩
  | .hbm, ⟨56, _⟩ => ⟨S100000, .i32⟩
  | .hbm, ⟨57, _⟩ => ⟨S100000, .i32⟩
  | .hbm, ⟨58, _⟩ => ⟨S100000x1, .i32⟩
  | .hbm, ⟨59, _⟩ => ⟨S100000x512, .bf16⟩
  | .hbm, ⟨60, _⟩ => ⟨S_, .i32⟩
  | .hbm, ⟨61, _⟩ => ⟨S100000, .i32⟩
  | .hbm, ⟨62, _⟩ => ⟨S100000, .i1⟩
  | .hbm, ⟨63, _⟩ => ⟨S_, .i32⟩
  | .hbm, ⟨64, _⟩ => ⟨S100000, .i32⟩
  | .hbm, ⟨65, _⟩ => ⟨S100000, .i32⟩
  | .hbm, ⟨66, _⟩ => ⟨S100000, .i32⟩
  | .hbm, ⟨67, _⟩ => ⟨S100000x1, .i32⟩
  | .hbm, ⟨68, _⟩ => ⟨S100000x512, .bf16⟩
  | .hbm, ⟨69, _⟩ => ⟨S100000x1, .f32⟩
  | .hbm, ⟨70, _⟩ => ⟨S100000, .f32⟩
  | .hbm, ⟨71, _⟩ => ⟨S100000x1, .f32⟩
  | .hbm, ⟨72, _⟩ => ⟨S100000, .f32⟩
  | .local _ .vmem, ⟨0, _⟩ => ⟨S2000x512, .f32⟩
  | .local _ .vmem, ⟨1, _⟩ => ⟨S2000x512, .f32⟩
  | .local _ .vmem, ⟨2, _⟩ => ⟨S512x512, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S2000x512, .bf16⟩
  | .local _ .vmem, ⟨9, _⟩ => ⟨S2000x512, .bf16⟩
  | .local _ .vmem, ⟨10, _⟩ => ⟨S2000x512, .bf16⟩
  | .local _ .vmem, ⟨11, _⟩ => ⟨S2000x512, .bf16⟩
  | .local _ .vmem, ⟨12, _⟩ => ⟨S2000x512, .bf16⟩
  | .local _ .vmem, ⟨13, _⟩ => ⟨S2000x512, .bf16⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S512x512, .bf16⟩
  | .local _ .vmem, ⟨18, _⟩ => ⟨S1x512, .f32⟩
  | .local _ .vmem, ⟨19, _⟩ => ⟨S512x1, .bf16⟩
  | .local _ .vmem, ⟨20, _⟩ => ⟨S1x1, .f32⟩
  | .local _ .vmem, ⟨21, _⟩ => ⟨S2000x1, .f32⟩
  | .local _ .vmem, ⟨22, _⟩ => ⟨S2000x1, .f32⟩
  | .local _ .vmem, ⟨23, _⟩ => ⟨S2000x512, .bf16⟩
  | .local _ .vmem, ⟨24, _⟩ => ⟨S2000x512, .bf16⟩
  | .local _ .vmem, ⟨25, _⟩ => ⟨S2000x512, .bf16⟩
  | .local _ .vmem, ⟨26, _⟩ => ⟨S2000x512, .bf16⟩
  | .local _ .vmem, ⟨27, _⟩ => ⟨S512x512, .bf16⟩
  | .local _ .vmem, ⟨28, _⟩ => ⟨S512x512, .bf16⟩
  | .local _ .vmem, ⟨29, _⟩ => ⟨S1x512, .f32⟩
  | .local _ .vmem, ⟨30, _⟩ => ⟨S512x512, .bf16⟩
  | .local _ .vmem, ⟨31, _⟩ => ⟨S1x512, .f32⟩
  | .local _ .vmem, ⟨32, _⟩ => ⟨S512x1, .bf16⟩
  | .local _ .vmem, ⟨33, _⟩ => ⟨S1x1, .f32⟩
  | .local _ .vmem, ⟨34, _⟩ => ⟨S2000x1, .f32⟩
  | .local _ .vmem, ⟨35, _⟩ => ⟨S2000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_c_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x1 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  packedbf16_S2000x512_S2000x512_0_0 : (Rect.unit (s := S2000x512) ![0, 0] S2000x512.size inb_S2000x512_S2000x512_0_0).PackedRows (EltTy.packing .bf16)
  slices_S1024x512_S512x512_0_0 : S1024x512.Slices ![0, 0] S512x512
  slices_S1024x512_S512x512_512_0 : S1024x512.Slices ![512, 0] S512x512
  shapeCasts_S1_S1x1 : S1.ShapeCasts S1x1
  bcast_S_S100000 : S_.BroadcastsInDim S100000 (![] : Fin 0 → Fin S100000.rank)
  bcast_S100000_S100000x1_0 : S100000.BroadcastsInDim S100000x1 (![0] : Fin 1 → Fin S100000x1.rank)
  shapeCasts_S2000x512_S2000x512 : S2000x512.ShapeCasts S2000x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  dot_S2000x512_S512x512_S2000x512_1_0_0_1_n_n_wf : DotDims.WF S2000x512 S512x512 S2000x512 [1] [0] [0] [1] [] []
  gather_S100000x512_S100000x1_S100000x512_1_0_n_n_0_1_1512_wf : GatherDims.WF S100000x512 S100000x1 S100000x512 [1] [0] [] [0] [] 1 ![1, 512]
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x512.size a ≤ S100000x512.size a
  hwx0_7 : ∀ i : grid0.Coords, EltTy.bits .bf16 = 32 ∨ (Rect.block (s := S100000x512) S2000x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .bf16 = 32 ∨ (Rect.block (s := S100000x512) S2000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S100000x512.size a
  hwx1_1 : ∀ i : grid1.Coords, EltTy.bits .bf16 = 32 ∨ (Rect.block (s := S100000x512) S2000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S512x1.size a
  hwx1_7 : ∀ i : grid1.Coords, EltTy.bits .bf16 = 32 ∨ (Rect.block (s := S512x1) S512x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x1.size a ≤ S100000x1.size a
  hwx1_9 : ∀ i : grid1.Coords, EltTy.bits .f32 = 32 ∨ (Rect.block (s := S100000x1) S2000x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S100000x512.size a
  hwx2_0 : ∀ i : grid2.Coords, EltTy.bits .bf16 = 32 ∨ (Rect.block (s := S100000x512) S2000x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S100000x512.size a
  hwx2_1 : ∀ i : grid2.Coords, EltTy.bits .bf16 = 32 ∨ (Rect.block (s := S100000x512) S2000x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S512x512.size a
  hwx2_5 : ∀ i : grid2.Coords, EltTy.bits .bf16 = 32 ∨ (Rect.block (s := S512x512) S512x512.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x512.size a
  hwx2_6 : ∀ i : grid2.Coords, EltTy.bits .f32 = 32 ∨ (Rect.block (s := S1x512) S1x512.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x1.size a ≤ S512x1.size a
  hwx2_7 : ∀ i : grid2.Coords, EltTy.bits .bf16 = 32 ∨ (Rect.block (s := S512x1) S512x1.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x1.size a ≤ S100000x1.size a
  hwx2_9 : ∀ i : grid2.Coords, EltTy.bits .f32 = 32 ∨ (Rect.block (s := S100000x1) S2000x1.size (cc2_transform_9 i) (hinb2_9 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S100000x512_S100000x1_S100000x512_1_0_n_n_0_1_1512 : GatherDims S100000x512 S100000x1 S100000x512 where
  offsetDims := [1]
  collapsedSliceDims := [0]
  operandBatchingDims := []
  startIndicesBatchingDims := []
  startIndexMap := [0]
  indexVectorDim := 1
  sliceSizes := ![1, 512]
  wf := gather_S100000x512_S100000x1_S100000x512_1_0_n_n_0_1_1512_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2000x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S512x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S2000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v36) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S512x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1x512.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v14) S512x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v15) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v46) S2000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1024x512 : Shape := ⟨2, ![1024, 512]⟩
abbrev S512x1 : Shape := ⟨2, ![512, 1]⟩
abbrev S1 : Shape := ⟨1, ![1]⟩
abbrev S1x512 : Shape := ⟨2, ![1, 512]⟩
abbrev S_ : Shape := ⟨0, ![]⟩
abbrev S100000x1 : Shape := ⟨2, ![100000, 1]⟩
abbrev S100000x1024 : Shape := ⟨2, ![100000, 1024]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S100000, .i32⟩
  | .hbm, ⟨3, _⟩ => ⟨S100000, .i32⟩
  | .hbm, ⟨4, _⟩ => ⟨S100000, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S1024x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x1, .f32⟩
  | .hbm, ⟨16, _⟩ => ⟨S1, .f32⟩
  | .hbm, ⟨17, _⟩ => ⟨S100000x512, .f32⟩
  | .hbm, ⟨18, _⟩ => ⟨S1x512, .f32⟩
  | .hbm, ⟨19, _⟩ => ⟨S100000x512, .f32⟩
  | .hbm, ⟨20, _⟩ => ⟨S100000x512, .f32⟩
  | .hbm, ⟨21, _⟩ => ⟨S_, .f32⟩
  | .hbm, ⟨22, _⟩ => ⟨S100000x512, .f32⟩
  | .hbm, ⟨23, _⟩ => ⟨S100000x512, .f32⟩
  | .hbm, ⟨24, _⟩ => ⟨S100000x512, .f32⟩
  | .hbm, ⟨25, _⟩ => ⟨S1x512, .f32⟩
  | .hbm, ⟨26, _⟩ => ⟨S100000x512, .f32⟩
  | .hbm, ⟨27, _⟩ => ⟨S100000x512, .f32⟩
  | .hbm, ⟨28, _⟩ => ⟨S_, .f32⟩
  | .hbm, ⟨29, _⟩ => ⟨S100000x512, .f32⟩
  | .hbm, ⟨30, _⟩ => ⟨S100000x512, .f32⟩
  | .hbm, ⟨31, _⟩ => ⟨S100000x512, .f32⟩
  | .hbm, ⟨32, _⟩ => ⟨S100000x512, .f32⟩
  | .hbm, ⟨33, _⟩ => ⟨S1x512, .f32⟩
  | .hbm, ⟨34, _⟩ => ⟨S100000x512, .f32⟩
  | .hbm, ⟨35, _⟩ => ⟨S100000x512, .f32⟩
  | .hbm, ⟨36, _⟩ => ⟨S_, .f32⟩
  | .hbm, ⟨37, _⟩ => ⟨S100000x512, .f32⟩
  | .hbm, ⟨38, _⟩ => ⟨S100000x512, .f32⟩
  | .hbm, ⟨39, _⟩ => ⟨S100000x512, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000x512, .f32⟩
  | .hbm, ⟨49, _⟩ => ⟨S_, .i32⟩
  | .hbm, ⟨50, _⟩ => ⟨S100000, .i32⟩
  | .hbm, ⟨51, _⟩ => ⟨S100000, .i1⟩
  | .hbm, ⟨52, _⟩ => ⟨S_, .i32⟩
  | .hbm, ⟨53, _⟩ => ⟨S100000, .i32⟩
  | .hbm, ⟨54, _⟩ => ⟨S100000, .i32⟩
  | .hbm, ⟨55, _⟩ => ⟨S100000, .i32⟩
  | .hbm, ⟨56, _⟩ => ⟨S100000x1, .i32⟩
  | .hbm, ⟨57, _⟩ => ⟨S100000x512, .f32⟩
  | .hbm, ⟨58, _⟩ => ⟨S100000x1024, .f32⟩
  | .hbm, ⟨59, _⟩ => ⟨S_, .i32⟩
  | .hbm, ⟨60, _⟩ => ⟨S100000, .i32⟩
  | .hbm, ⟨61, _⟩ => ⟨S100000, .i1⟩
  | .hbm, ⟨62, _⟩ => ⟨S_, .i32⟩
  | .hbm, ⟨63, _⟩ => ⟨S100000, .i32⟩
  | .hbm, ⟨64, _⟩ => ⟨S100000, .i32⟩
  | .hbm, ⟨65, _⟩ => ⟨S100000, .i32⟩
  | .hbm, ⟨66, _⟩ => ⟨S100000x1, .i32⟩
  | .hbm, ⟨67, _⟩ => ⟨S100000x512, .f32⟩
  | .hbm, ⟨68, _⟩ => ⟨S_, .i32⟩
  | .hbm, ⟨69, _⟩ => ⟨S100000, .i32⟩
  | .hbm, ⟨70, _⟩ => ⟨S100000, .i1⟩
  | .hbm, ⟨71, _⟩ => ⟨S_, .i32⟩
  | .hbm, ⟨72, _⟩ => ⟨S100000, .i32⟩
  | .hbm, ⟨73, _⟩ => ⟨S100000, .i32⟩
  | .hbm, ⟨74, _⟩ => ⟨S100000, .i32⟩
  | .hbm, ⟨75, _⟩ => ⟨S100000x1, .i32⟩
  | .hbm, ⟨76, _⟩ => ⟨S100000x512, .f32⟩
  | .hbm, ⟨77, _⟩ => ⟨S100000x1024, .f32⟩
  | .hbm, ⟨78, _⟩ => ⟨S100000x512, .f32⟩
  | .hbm, ⟨79, _⟩ => ⟨S1x512, .f32⟩
  | .hbm, ⟨80, _⟩ => ⟨S100000x512, .f32⟩
  | .hbm, ⟨81, _⟩ => ⟨S100000x512, .f32⟩
  | .hbm, ⟨82, _⟩ => ⟨S_, .f32⟩
  | .hbm, ⟨83, _⟩ => ⟨S100000x512, .f32⟩
  | .hbm, ⟨84, _⟩ => ⟨S100000x512, .f32⟩
  | .hbm, ⟨85, _⟩ => ⟨S100000x512, .f32⟩
  | .hbm, ⟨86, _⟩ => ⟨S1x512, .f32⟩
  | .hbm, ⟨87, _⟩ => ⟨S100000x512, .f32⟩
  | .hbm, ⟨88, _⟩ => ⟨S100000x512, .f32⟩
  | .hbm, ⟨89, _⟩ => ⟨S_, .f32⟩
  | .hbm, ⟨90, _⟩ => ⟨S100000x512, .f32⟩
  | .hbm, ⟨91, _⟩ => ⟨S100000x512, .f32⟩
  | .hbm, ⟨92, _⟩ => ⟨S100000x1, .f32⟩
  | .hbm, ⟨93, _⟩ => ⟨S1x1, .f32⟩
  | .hbm, ⟨94, _⟩ => ⟨S100000x1, .f32⟩
  | .hbm, ⟨95, _⟩ => ⟨S100000x1, .f32⟩
  | .hbm, ⟨96, _⟩ => ⟨S100000, .f32⟩
  | .hbm, ⟨97, _⟩ => ⟨S100000x512, .f32⟩
  | .hbm, ⟨98, _⟩ => ⟨S1x512, .f32⟩
  | .hbm, ⟨99, _⟩ => ⟨S100000x512, .f32⟩
  | .hbm, ⟨100, _⟩ => ⟨S100000x512, .f32⟩
  | .hbm, ⟨101, _⟩ => ⟨S_, .f32⟩
  | .hbm, ⟨102, _⟩ => ⟨S100000x512, .f32⟩
  | .hbm, ⟨103, _⟩ => ⟨S100000x512, .f32⟩
  | .hbm, ⟨104, _⟩ => ⟨S100000x512, .f32⟩
  | .hbm, ⟨105, _⟩ => ⟨S1x512, .f32⟩
  | .hbm, ⟨106, _⟩ => ⟨S100000x512, .f32⟩
  | .hbm, ⟨107, _⟩ => ⟨S100000x512, .f32⟩
  | .hbm, ⟨108, _⟩ => ⟨S_, .f32⟩
  | .hbm, ⟨109, _⟩ => ⟨S100000x512, .f32⟩
  | .hbm, ⟨110, _⟩ => ⟨S100000x512, .f32⟩
  | .hbm, ⟨111, _⟩ => ⟨S100000x1, .f32⟩
  | .hbm, ⟨112, _⟩ => ⟨S1x1, .f32⟩
  | .hbm, ⟨113, _⟩ => ⟨S100000x1, .f32⟩
  | .hbm, ⟨114, _⟩ => ⟨S100000x1, .f32⟩
  | .hbm, ⟨115, _⟩ => ⟨S100000, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call2_cst : Ref sig .tc := ⟨.hbm, 36, rfl⟩
abbrev main_call2_v0 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_1 : Ref sig .tc := ⟨.hbm, 49, rfl⟩
abbrev main_v24 : Ref sig .tc := ⟨.hbm, 50, rfl⟩
abbrev main_v25 : Ref sig .tc := ⟨.hbm, 51, rfl⟩
abbrev main_c_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_3 : Ref sig .tc := ⟨.hbm, 59, rfl⟩
abbrev main_v32 : Ref sig .tc := ⟨.hbm, 60, rfl⟩
abbrev main_v33 : Ref sig .tc := ⟨.hbm, 61, rfl⟩
abbrev main_c_4 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_5 : Ref sig .tc := ⟨.hbm, 68, rfl⟩
abbrev main_v39 : Ref sig .tc := ⟨.hbm, 69, rfl⟩
abbrev main_v40 : Ref sig .tc := ⟨.hbm, 70, rfl⟩
abbrev main_c_6 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call3_cst : Ref sig .tc := ⟨.hbm, 82, rfl⟩
abbrev main_call3_v0 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call4_cst : Ref sig .tc := ⟨.hbm, 89, rfl⟩
abbrev main_call4_v0 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call5_cst : Ref sig .tc := ⟨.hbm, 101, rfl⟩
abbrev main_call5_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call6_cst : Ref sig .tc := ⟨.hbm, 108, rfl⟩
abbrev main_call6_v0 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x512_S100000x512_S100000x1024_d1 : Shape.Concatenates [S100000x512, S100000x512] S100000x1024 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x512_S512x512_S100000x512_1_0_0_1_n_n_wf : DotDims.WF S100000x512 S512x512 S100000x512 [1] [0] [0] [1] [] []
  gather_S100000x512_S100000x1_S100000x512_1_0_n_n_0_1_1512_wf : GatherDims.WF S100000x512 S100000x1 S100000x512 [1] [0] [] [0] [] 1 ![1, 512]
  dot_S100000x1024_S1024x512_S100000x512_1_0_0_1_n_n_wf : DotDims.WF S100000x1024 S1024x512 S100000x512 [1] [0] [0] [1] [] []
  dot_S100000x512_S512x1_S100000x1_1_0_0_1_n_n_wf : DotDims.WF S100000x512 S512x1 S100000x1 [1] [0] [0] [1] [] []

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def gather_S100000x512_S100000x1_S100000x512_1_0_n_n_0_1_1512 : GatherDims S100000x512 S100000x1 S100000x512 where
  offsetDims := [1]
  collapsedSliceDims := [0]
  operandBatchingDims := []
  startIndicesBatchingDims := []
  startIndexMap := [0]
  indexVectorDim := 1
  sliceSizes := ![1, 512]
  wf := gather_S100000x512_S100000x1_S100000x512_1_0_n_n_0_1_1512_wf
def dot_S100000x1024_S1024x512_S100000x512_1_0_0_1_n_n : DotDims S100000x1024 S1024x512 S100000x512 where
  lhsContracting := [1]
  rhsContracting := [0]
  lhsNonContracting := [0]
  rhsNonContracting := [1]
  lhsBatch := []
  rhsBatch := []
  wf := dot_S100000x1024_S1024x512_S100000x512_1_0_0_1_n_n_wf
def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf

class Facts : Prop extends Facts₀ where

variable [Facts]
-- ==== Proof.HostK.lean ====
import proofs.«139685_j39737037422592_1_alg».proof.Proof.Gen.KernelIdeal.Frame

set_option maxRecDepth 16384

noncomputable section

/-!
  What the host operations around the three launches leave in the buffers the launches read, and what the two result
  buffers hold at the end, each as a term of the launch memory: a host operation's result buffer holds its function of
  its operands' buffers, a buffer no operation writes keeps its contents, and a launch changes only its output array.
-/
namespace Cert.KernelIdeal.HostK

open Cert.KernelIdeal Cert.KernelIdeal.Gen
open Idealize.ShloMosaic Idealize.ShloMosaic.TcCoe Idealize.ShloMosaic.StableHlo
open Idealize.SL.Sem

variable {F : FTy → Type} [FloatOps F]
variable (m : (ℓ : Loc nD τ sig) → Buf (Elt F) ℓ) (ρ : Dev nD → PrngReg)

/-- The row each edge gathers: the index as given, or counted from the end when negative. -/
def selIdx (a : IVec S100000 32) : IVec S100000x1 32 :=
  broadcastInDim S100000x1 ![0] bcast_S100000_S100000x1_0
    (select (cmpi .slt a (broadcastInDim S100000 ![] bcast_S_S100000 (constantI S_ 32 0#32)))
      (addi a (broadcastInDim S100000 ![] bcast_S_S100000 (constantI S_ 32 100000#32))) a)

/-! ## At the first launch's entry -/

theorem V1_arg0 (c : Dev nD) : V1 m ρ c main_arg0 = m ((c : Thread nD τ).loc main_arg0) := by
  show StableHlo.after hostOps0 (W0 m ρ c) (Proc.devRef .tc main_arg0) = _
  after_results
theorem V1_v0 (c : Dev nD) : V1 m ρ c main_v0 = truncf .bf16 (m ((c : Thread nD τ).loc main_arg5)) bitsLt_bf16_f32 := by
  show StableHlo.after hostOps0 (W0 m ρ c) (Proc.devRef .tc main_v0) = _
  after_results
theorem V1_v1 (c : Dev nD) : V1 m ρ c main_v1 = truncf .bf16 (m ((c : Thread nD τ).loc main_arg7)) bitsLt_bf16_f32 := by
  show StableHlo.after hostOps0 (W0 m ρ c) (Proc.devRef .tc main_v1) = _
  after_results
theorem V1_v2 (c : Dev nD) : V1 m ρ c main_v2 = truncf .bf16 (m ((c : Thread nD τ).loc main_arg9)) bitsLt_bf16_f32 := by
  show StableHlo.after hostOps0 (W0 m ρ c) (Proc.devRef .tc main_v2) = _
  after_results
theorem V1_v3 (c : Dev nD) : V1 m ρ c main_v3 = shapeCast S1x512 (m ((c : Thread nD τ).loc main_arg6)) shapeCasts_S512_S1x512 := by
  show StableHlo.after hostOps0 (W0 m ρ c) (Proc.devRef .tc main_v3) = _
  after_results
  rfl
theorem V1_v4 (c : Dev nD) : V1 m ρ c main_v4 = shapeCast S1x512 (m ((c : Thread nD τ).loc main_arg8)) shapeCasts_S512_S1x512 := by
  show StableHlo.after hostOps0 (W0 m ρ c) (Proc.devRef .tc main_v4) = _
  after_results
  rfl
theorem V1_v5 (c : Dev nD) : V1 m ρ c main_v5 = shapeCast S1x512 (m ((c : Thread nD τ).loc main_arg10)) shapeCasts_S512_S1x512 := by
  show StableHlo.after hostOps0 (W0 m ρ c) (Proc.devRef .tc main_v5) = _
  after_results
  rfl

/-! ## After the first launch: its output array, and the arguments the later operations read -/

theorem W2_v6 (c : Dev nD) : W2 m ρ c (Proc.devRef .tc main_v6) = (dat0 (V1 m ρ) c).arrAt 7 cfg0.N := W2_arr m ρ c 7
theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results
theorem W2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results
theorem W2_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results
theorem W2_arg13 (c : Dev nD) : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  after_results
theorem W2_arg14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  after_results
theorem W2_arg15 (c : Dev nD) : W2 m ρ c (Proc.devRef .tc main_arg15) = m ((c : Thread nD τ).loc main_arg15) := by
  rw [W2_of_ne m ρ c main_arg15 (by decide)]
  show StableHlo.after hostOps0 (W0 m ρ c) (Proc.devRef .tc main_arg15) = _
  after_results
theorem W2_arg16 (c : Dev nD) : W2 m ρ c (Proc.devRef .tc main_arg16) = m ((c : Thread nD τ).loc main_arg16) := by
  rw [W2_of_ne m ρ c main_arg16 (by decide)]
  show StableHlo.after hostOps0 (W0 m ρ c) (Proc.devRef .tc main_arg16) = _
  after_results

/-! ## At the second launch's entry (all four gathers are made before it) -/
set_option maxHeartbeats 4000000 in
theorem W3_v22 (c : Dev nD) : W3 m ρ c (Proc.devRef .tc main_v22)
    = Host.gather gather_S100000x512_S100000x1_S100000x512_1_0_n_n_0_1_1512 ((dat0 (V1 m ρ) c).arrAt 7 cfg0.N)
        (selIdx (m ((c : Thread nD τ).loc main_arg1))) := by
  show StableHlo.after hostOps1 (W2 m ρ c) (Proc.devRef .tc main_v22) = _
  after_results_simp
  rw [W2_arg1, W2_v6]
  rfl
set_option maxHeartbeats 4000000 in
theorem W3_v29 (c : Dev nD) : W3 m ρ c (Proc.devRef .tc main_v29)
    = Host.gather gather_S100000x512_S100000x1_S100000x512_1_0_n_n_0_1_1512 ((dat0 (V1 m ρ) c).arrAt 7 cfg0.N)
        (selIdx (m ((c : Thread nD τ).loc main_arg2))) := by
  show StableHlo.after hostOps1 (W2 m ρ c) (Proc.devRef .tc main_v29) = _
  after_results_simp
  rw [W2_arg2, W2_v6]
  rfl
set_option maxHeartbeats 4000000 in
theorem W3_v36 (c : Dev nD) : W3 m ρ c (Proc.devRef .tc main_v36)
    = Host.gather gather_S100000x512_S100000x1_S100000x512_1_0_n_n_0_1_1512 ((dat0 (V1 m ρ) c).arrAt 7 cfg0.N)
        (selIdx (m ((c : Thread nD τ).loc main_arg3))) := by
  show StableHlo.after hostOps1 (W2 m ρ c) (Proc.devRef .tc main_v36) = _
  after_results_simp
  rw [W2_arg3, W2_v6]
  rfl
set_option maxHeartbeats 4000000 in
theorem W3_v43 (c : Dev nD) : W3 m ρ c (Proc.devRef .tc main_v43)
    = Host.gather gather_S100000x512_S100000x1_S100000x512_1_0_n_n_0_1_1512 ((dat0 (V1 m ρ) c).arrAt 7 cfg0.N)
        (selIdx (m ((c : Thread nD τ).loc main_arg4))) := by
  show StableHlo.after hostOps1 (W2 m ρ c) (Proc.devRef .tc main_v43) = _
  after_results_simp
  rw [W2_arg4, W2_v6]
  rfl
set_option maxHeartbeats 4000000 in
theorem W3_v8 (c : Dev nD) : W3 m ρ c (Proc.devRef .tc main_v8) = truncf .bf16 (extractStridedSlice S512x512 ![0, 0] (m ((c : Thread nD τ).loc main_arg11)) slices_S1024x512_S512x512_0_0) bitsLt_bf16_f32 := by
  show StableHlo.after hostOps1 (W2 m ρ c) (Proc.devRef .tc main_v8) = _
  after_results_simp
  rw [W2_arg11]
set_option maxHeartbeats 4000000 in
theorem W3_v10 (c : Dev nD) : W3 m ρ c (Proc.devRef .tc main_v10) = truncf .bf16 (extractStridedSlice S512x512 ![512, 0] (m ((c : Thread nD τ).loc main_arg11)) slices_S1024x512_S512x512_512_0) bitsLt_bf16_f32 := by
  show StableHlo.after hostOps1 (W2 m ρ c) (Proc.devRef .tc main_v10) = _
  after_results_simp
  rw [W2_arg11]
set_option maxHeartbeats 4000000 in
theorem W3_v11 (c : Dev nD) : W3 m ρ c (Proc.devRef .tc main_v11) = shapeCast S1x512 (m ((c : Thread nD τ).loc main_arg12)) shapeCasts_S512_S1x512 := by
  show StableHlo.after hostOps1 (W2 m ρ c) (Proc.devRef .tc main_v11) = _
  after_results_simp
  rw [W2_arg12]
  rfl
set_option maxHeartbeats 4000000 in
theorem W3_v12 (c : Dev nD) : W3 m ρ c (Proc.devRef .tc main_v12) = truncf .bf16 (m ((c : Thread nD τ).loc main_arg13)) bitsLt_bf16_f32 := by
  show StableHlo.after hostOps1 (W2 m ρ c) (Proc.devRef .tc main_v12) = _
  after_results_simp
  rw [W2_arg13]
set_option maxHeartbeats 4000000 in
theorem W3_v13 (c : Dev nD) : W3 m ρ c (Proc.devRef .tc main_v13) = shapeCast S1x512 (m ((c : Thread nD τ).loc main_arg14)) shapeCasts_S512_S1x512 := by
  show StableHlo.after hostOps1 (W2 m ρ c) (Proc.devRef .tc main_v13) = _
  after_results_simp
  rw [W2_arg14]
  rfl
set_option maxHeartbeats 4000000 in
theorem W3_v14 (c : Dev nD) : W3 m ρ c (Proc.devRef .tc main_v14) = truncf .bf16 (m ((c : Thread nD τ).loc main_arg15)) bitsLt_bf16_f32 := by
  show StableHlo.after hostOps1 (W2 m ρ c) (Proc.devRef .tc main_v14) = _
  after_results_simp
  rw [W2_arg15]
set_option maxHeartbeats 4000000 in
theorem W3_v15 (c : Dev nD) : W3 m ρ c (Proc.devRef .tc main_v15) = shapeCast S1x1 (m ((c : Thread nD τ).loc main_arg16)) shapeCasts_S1_S1x1 := by
  show StableHlo.after hostOps1 (W2 m ρ c) (Proc.devRef .tc main_v15) = _
  after_results_simp
  rw [W2_arg16]
  rfl

/-! ## After the second launch -/

theorem W4_v44 (c : Dev nD) : W4 m ρ c (Proc.devRef .tc main_v44) = (dat1 (V3 m ρ) c).arrAt 9 cfg1.N := W4_arr m ρ c 9

/-! ## At the third launch's entry: the other two gathered tables, untouched by the second launch, and the weights it
    only read -/
theorem V5_v36 (c : Dev nD) : V5 m ρ c main_v36 = W3 m ρ c (Proc.devRef .tc main_v36) := by
  have h : StableHlo.after hostOps2 (W4 m ρ c) (Proc.devRef .tc main_v36) = W4 m ρ c (Proc.devRef .tc main_v36) := by
    after_results
  exact h.trans (W4_of_ne m ρ c main_v36 (by decide))
theorem V5_v43 (c : Dev nD) : V5 m ρ c main_v43 = W3 m ρ c (Proc.devRef .tc main_v43) := by
  have h : StableHlo.after hostOps2 (W4 m ρ c) (Proc.devRef .tc main_v43) = W4 m ρ c (Proc.devRef .tc main_v43) := by
    after_results
  exact h.trans (W4_of_ne m ρ c main_v43 (by decide))
theorem V5_v8 (c : Dev nD) : V5 m ρ c main_v8 = W3 m ρ c (Proc.devRef .tc main_v8) := by
  have h : StableHlo.after hostOps2 (W4 m ρ c) (Proc.devRef .tc main_v8) = W4 m ρ c (Proc.devRef .tc main_v8) := by
    after_results
  refine h.trans ?_
  exact (W4_arr m ρ c 2).trans (((dat1 (V3 m ρ) c).arrAt_in 2 rfl _).trans (A_eq1 (V3 m ρ) c 2))
theorem V5_v10 (c : Dev nD) : V5 m ρ c main_v10 = W3 m ρ c (Proc.devRef .tc main_v10) := by
  have h : StableHlo.after hostOps2 (W4 m ρ c) (Proc.devRef .tc main_v10) = W4 m ρ c (Proc.devRef .tc main_v10) := by
    after_results
  refine h.trans ?_
  exact (W4_arr m ρ c 3).trans (((dat1 (V3 m ρ) c).arrAt_in 3 rfl _).trans (A_eq1 (V3 m ρ) c 3))
theorem V5_v11 (c : Dev nD) : V5 m ρ c main_v11 = W3 m ρ c (Proc.devRef .tc main_v11) := by
  have h : StableHlo.after hostOps2 (W4 m ρ c) (Proc.devRef .tc main_v11) = W4 m ρ c (Proc.devRef .tc main_v11) := by
    after_results
  refine h.trans ?_
  exact (W4_arr m ρ c 4).trans (((dat1 (V3 m ρ) c).arrAt_in 4 rfl _).trans (A_eq1 (V3 m ρ) c 4))
theorem V5_v12 (c : Dev nD) : V5 m ρ c main_v12 = W3 m ρ c (Proc.devRef .tc main_v12) := by
  have h : StableHlo.after hostOps2 (W4 m ρ c) (Proc.devRef .tc main_v12) = W4 m ρ c (Proc.devRef .tc main_v12) := by
    after_results
  refine h.trans ?_
  exact (W4_arr m ρ c 5).trans (((dat1 (V3 m ρ) c).arrAt_in 5 rfl _).trans (A_eq1 (V3 m ρ) c 5))
theorem V5_v13 (c : Dev nD) : V5 m ρ c main_v13 = W3 m ρ c (Proc.devRef .tc main_v13) := by
  have h : StableHlo.after hostOps2 (W4 m ρ c) (Proc.devRef .tc main_v13) = W4 m ρ c (Proc.devRef .tc main_v13) := by
    after_results
  refine h.trans ?_
  exact (W4_arr m ρ c 6).trans (((dat1 (V3 m ρ) c).arrAt_in 6 rfl _).trans (A_eq1 (V3 m ρ) c 6))
theorem V5_v14 (c : Dev nD) : V5 m ρ c main_v14 = W3 m ρ c (Proc.devRef .tc main_v14) := by
  have h : StableHlo.after hostOps2 (W4 m ρ c) (Proc.devRef .tc main_v14) = W4 m ρ c (Proc.devRef .tc main_v14) := by
    after_results
  refine h.trans ?_
  exact (W4_arr m ρ c 7).trans (((dat1 (V3 m ρ) c).arrAt_in 7 rfl _).trans (A_eq1 (V3 m ρ) c 7))
theorem V5_v15 (c : Dev nD) : V5 m ρ c main_v15 = W3 m ρ c (Proc.devRef .tc main_v15) := by
  have h : StableHlo.after hostOps2 (W4 m ρ c) (Proc.devRef .tc main_v15) = W4 m ρ c (Proc.devRef .tc main_v15) := by
    after_results
  refine h.trans ?_
  exact (W4_arr m ρ c 8).trans (((dat1 (V3 m ρ) c).arrAt_in 8 rfl _).trans (A_eq1 (V3 m ρ) c 8))

/-! ## The two results at the end -/

theorem W7_v45 (c : Dev nD) : W7 m ρ c (Proc.devRef .tc main_v45)
    = shapeCast S100000 ((dat1 (V3 m ρ) c).arrAt 9 cfg1.N) shapeCasts_S100000x1_S100000 := by
  show StableHlo.after hostOps3 (W6 m ρ c) (Proc.devRef .tc main_v45) = _
  after_results
  rw [W6_of_ne m ρ c main_v45 (by decide)]
  show StableHlo.after hostOps2 (W4 m ρ c) (Proc.devRef .tc main_v45) = _
  after_results
  rw [W4_v44]
  rfl

theorem W7_v47 (c : Dev nD) : W7 m ρ c (Proc.devRef .tc main_v47)
    = shapeCast S100000 ((dat2 (V5 m ρ) c).arrAt 9 cfg2.N) shapeCasts_S100000x1_S100000 := by
  show StableHlo.after hostOps3 (W6 m ρ c) (Proc.devRef .tc main_v47) = _
  after_results
  rw [W6_arr m ρ c 9]
  rfl

end Cert.KernelIdeal.HostK

end
-- ==== Proof.Spec.lean ====
/-
  What the two programs compute, as plain functions on the extended reals.

  A dense layer sends a row v of K numbers to the row  j ↦ max (∑ q, v q · W q j + b j) 0  of N numbers.
  The encoder applies three such layers of width 512 to a row x, the second and third with a residual:
      h₁ = layer x W₁ b₁,   h₂ = layer h₁ W₂ b₂ + h₁,   h₃ = layer h₂ Wₒ bₒ + h₂.
  The scorer takes two encoded rows s and d (the two ends of an edge) and returns one number: its first layer's
  weight matrix has 1024 rows, of which the upper 512 multiply s and the lower 512 multiply d,
      a = j ↦ max ((∑ q, s q · T q j + ∑ q, d q · B q j) + b₁ j) 0,   b = layer a P₂ b₂,   c = ∑ q, b q · w q + b₃.
  One program forms the first layer as the two sums above, the other as ONE sum over the 1024 entries of the two rows
  laid side by side against the whole matrix: the two agree because a sum over 1024 consecutive positions is the sum
  over the first 512 plus the sum over the last 512 (`sum_split`), a fact about finite sums in a commutative
  monoid that needs no finiteness of the summands.
-/
import Idealize.ShloMosaic.PureOps.Ideal.Laws
import Idealize.ShloMosaic.Lib.ValueIdx

noncomputable section

open scoped BigOperators

namespace Cert.Spec

open Idealize.ShloMosaic Idealize.ShloMosaic.ValueIdx

/-- A matrix of extended reals with `r` rows and `c` columns, as a function of the rank-2 index. -/
abbrev Arr (r c : Nat) := (⟨2, ![r, c]⟩ : Shape).Idx → EReal

/-- The rectifier. -/
def relu (x : EReal) : EReal := max x 0

/-- One dense layer with rectifier, on one row. -/
def layer {K N : Nat} (v : Fin K → EReal) (W : Fin K → Fin N → EReal) (b : Fin N → EReal) (j : Fin N) : EReal :=
  relu ((∑ q : Fin K, v q * W q j) + b j)

/-- The encoder on one row: three dense layers of width 512, the second and the third with a residual. -/
def encRow (x : Fin 512 → EReal) (W1 : Fin 512 → Fin 512 → EReal) (b1 : Fin 512 → EReal)
    (W2 : Fin 512 → Fin 512 → EReal) (b2 : Fin 512 → EReal) (Wo : Fin 512 → Fin 512 → EReal) (bo : Fin 512 → EReal) :
    Fin 512 → EReal :=
  fun j => layer (fun q => layer (fun q' => layer x W1 b1 q') W2 b2 q + layer x W1 b1 q) Wo bo j
    + (layer (fun q' => layer x W1 b1 q') W2 b2 j + layer x W1 b1 j)

/-- The scorer's first layer on the two rows of an edge, as the sum of two products. -/
def projFirst (s d : Fin 512 → EReal) (T B : Fin 512 → Fin 512 → EReal) (b1 : Fin 512 → EReal) (j : Fin 512) : EReal :=
  relu (((∑ q : Fin 512, s q * T q j) + (∑ q : Fin 512, d q * B q j)) + b1 j)

/-- The scorer on the two rows of an edge. -/
def projRow (s d : Fin 512 → EReal) (T B : Fin 512 → Fin 512 → EReal) (b1 : Fin 512 → EReal)
    (P2 : Fin 512 → Fin 512 → EReal) (b2 : Fin 512 → EReal) (w : Fin 512 → EReal) (b3 : EReal) : EReal :=
  (∑ q : Fin 512, layer (projFirst s d T B b1) P2 b2 q * w q) + b3

/-- A sum over 1024 consecutive positions is the sum over the first 512 plus the sum over the last 512. -/
theorem sum_split (f : Fin 1024 → EReal) :
    ∑ k : Fin 1024, f k = (∑ q : Fin 512, f (Fin.castAdd 512 q)) + (∑ q : Fin 512, f (Fin.natAdd 512 q)) :=
  Fin.sum_univ_add (a := 512) (b := 512) f

/-- The encoder applied to every row of an array of `n` rows. -/
def encArr {n : Nat} (X : Arr n 512) (W1 : Arr 512 512) (b1 : Fin 512 → EReal) (W2 : Arr 512 512) (b2 : Fin 512 → EReal)
    (Wo : Arr 512 512) (bo : Fin 512 → EReal) : Arr n 512 :=
  fun i => encRow (fun q => X (ix2 (i 0 : Fin n) q)) (fun q j => W1 (ix2 q j)) b1 (fun q j => W2 (ix2 q j)) b2
    (fun q j => Wo (ix2 q j)) bo (i 1 : Fin 512)

/-- The scorer applied to every pair of rows of two arrays of `n` rows: a column of `n` numbers. -/
def projArr {n : Nat} (S D : Arr n 512) (T B : Arr 512 512) (b1 : Fin 512 → EReal) (P2 : Arr 512 512) (b2 : Fin 512 → EReal)
    (w : Fin 512 → EReal) (b3 : EReal) : Arr n 1 :=
  fun i => projRow (fun q => S (ix2 (i 0 : Fin n) q)) (fun q => D (ix2 (i 0 : Fin n) q)) (fun q j => T (ix2 q j))
    (fun q j => B (ix2 q j)) b1 (fun q j => P2 (ix2 q j)) b2 w b3

/-- The scorer on whole arrays, its first layer's matrix given whole (1024 rows: the upper 512 meet the first array's
    row, the lower 512 the second's), the biases as flat rows, the last layer's weights as a one-column matrix: edge
    `e`'s score. -/
def score {n : Nat} (S D : Arr n 512) (P1w : Arr 1024 512) (P1b : (⟨1, ![512]⟩ : Shape).Idx → EReal) (P2w : Arr 512 512)
    (P2b : (⟨1, ![512]⟩ : Shape).Idx → EReal) (P3w : Arr 512 1) (P3b : (⟨1, ![1]⟩ : Shape).Idx → EReal) (e : Fin n) : EReal :=
  projRow (fun q => S (ix2 e q)) (fun q => D (ix2 e q)) (fun q j => P1w (ix2 (Fin.castAdd 512 q) j))
    (fun q j => P1w (ix2 (Fin.natAdd 512 q) j)) (fun j => P1b (ix1 j)) (fun q j => P2w (ix2 q j)) (fun j => P2b (ix1 j))
    (fun q => P3w (ix2 q 0)) (P3b (ix1 0))

end Cert.Spec

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.DenseAt.lean ====
/-
  A dense layer of a kernel body, read at one entry.

  The body forms  relu (A · W + b)  on whole blocks: a matrix product accumulated into an all-zero block, a bias row
  laid over every row of the block, an entrywise sum, and an entrywise maximum with the zero word. Read at entry (p, j)
  over the extended reals these are

      (∑ q, A (p, q) · W (q, j)) + b (0, j)        and        max x 0,

  with no law of the extended reals used: the product is the plain one (its dimension numbers are those of an M × K
  array times a K × N array), the bias row is read at its only row, and the zero word denotes 0.
-/
import proofs.«139685_j39737037422592_1_alg».proof.Proof.LibDotPlain
import Idealize.ShloMosaic.Lib.ValueLayout
import Idealize.ShloMosaic.Lib.Pipeline.Value

noncomputable section

open scoped BigOperators

namespace Cert.KernelIdeal.Pay

open Idealize.ShloMosaic Idealize.ShloMosaic.ValueIdx

variable {M K N : Nat}

/-- A product with the plain dimension numbers, accumulated into the all-zero block, at entry (p, j): the sum over q
    of A (p, q) · W (q, j). The dimension numbers are given as any record equal to the plain one. -/
theorem matmul_at {φ ψ : FTy} (d : DotDims ⟨2, ![M, K]⟩ ⟨2, ![K, N]⟩ ⟨2, ![M, N]⟩) (hd : d = DotDims.plain M K N)
    (prec : Option ContractPrecision) (A : FVec Ideal ⟨2, ![M, K]⟩ φ) (W : FVec Ideal ⟨2, ![K, N]⟩ ψ)
    (p : Fin M) (j : Fin N) :
    matmul (F := Ideal) d prec A W (constant (F := Ideal) ⟨2, ![M, N]⟩ .f32 0x00000000#32) (ix2 p j)
      = ∑ q : Fin K, A (ix2 p q) * W (ix2 q j) := by
  subst hd
  exact Cert.LibDotPlain.matmul_zero_plain M K N prec A W p j

/-- A one-row block cast to its own shape and laid over M rows, at entry (p, j): the row's entry j. -/
theorem bias_at {α : Type} (b : (⟨2, ![1, N]⟩ : Shape).Idx → α) (h : (⟨2, ![1, N]⟩ : Shape).ShapeCasts ⟨2, ![1, N]⟩)
    (h' : (⟨2, ![1, N]⟩ : Shape).Broadcasts ⟨2, ![M, N]⟩) (p : Fin M) (j : Fin N) :
    broadcastTo ⟨2, ![M, N]⟩ (shapeCast ⟨2, ![1, N]⟩ b h) h' (ix2 p j) = b (ix2 0 j) := by
  rw [shapeCast_self]
  exact broadcastTo_1b_ab_apply b h' p j

/-- The entrywise maximum with the zero word, at any index: the maximum with 0. -/
theorem relu_at {s : Shape} (x : FVec Ideal s .f32) (i : s.Idx) :
    maximumf x (broadcast s (Scalar.ofBits (F := Ideal) .f32 0x00000000#32)) i = max (x i) 0 := by
  show max (x i) (Ideal.ofBits .f32 0x00000000#32) = max (x i) 0
  rw [Ideal.ofBits_zero_f32]

/-- A dense layer without rectifier at entry (p, j): the product's entry plus the bias row's entry j. -/
theorem dense_at {φ ψ : FTy} (d : DotDims ⟨2, ![M, K]⟩ ⟨2, ![K, N]⟩ ⟨2, ![M, N]⟩) (hd : d = DotDims.plain M K N)
    (prec : Option ContractPrecision) (A : FVec Ideal ⟨2, ![M, K]⟩ φ) (W : FVec Ideal ⟨2, ![K, N]⟩ ψ)
    (b : FVec Ideal ⟨2, ![1, N]⟩ .f32) (h : (⟨2, ![1, N]⟩ : Shape).ShapeCasts ⟨2, ![1, N]⟩)
    (h' : (⟨2, ![1, N]⟩ : Shape).Broadcasts ⟨2, ![M, N]⟩) (p : Fin M) (j : Fin N) :
    addf (matmul (F := Ideal) d prec A W (constant (F := Ideal) ⟨2, ![M, N]⟩ .f32 0x00000000#32))
        (broadcastTo ⟨2, ![M, N]⟩ (shapeCast ⟨2, ![1, N]⟩ b h) h') (ix2 p j)
      = (∑ q : Fin K, A (ix2 p q) * W (ix2 q j)) + b (ix2 0 j) := by
  show matmul (F := Ideal) d prec A W (constant (F := Ideal) ⟨2, ![M, N]⟩ .f32 0x00000000#32) (ix2 p j)
      + broadcastTo ⟨2, ![M, N]⟩ (shapeCast ⟨2, ![1, N]⟩ b h) h' (ix2 p j) = _
  rw [matmul_at d hd, bias_at]

/-- A dense layer with rectifier at entry (p, j). -/
theorem layer_at {φ ψ : FTy} (d : DotDims ⟨2, ![M, K]⟩ ⟨2, ![K, N]⟩ ⟨2, ![M, N]⟩) (hd : d = DotDims.plain M K N)
    (prec : Option ContractPrecision) (A : FVec Ideal ⟨2, ![M, K]⟩ φ) (W : FVec Ideal ⟨2, ![K, N]⟩ ψ)
    (b : FVec Ideal ⟨2, ![1, N]⟩ .f32) (h : (⟨2, ![1, N]⟩ : Shape).ShapeCasts ⟨2, ![1, N]⟩)
    (h' : (⟨2, ![1, N]⟩ : Shape).Broadcasts ⟨2, ![M, N]⟩) (p : Fin M) (j : Fin N) :
    maximumf (addf (matmul (F := Ideal) d prec A W (constant (F := Ideal) ⟨2, ![M, N]⟩ .f32 0x00000000#32))
        (broadcastTo ⟨2, ![M, N]⟩ (shapeCast ⟨2, ![1, N]⟩ b h) h'))
        (broadcast ⟨2, ![M, N]⟩ (Scalar.ofBits (F := Ideal) .f32 0x00000000#32)) (ix2 p j)
      = max ((∑ q : Fin K, A (ix2 p q) * W (ix2 q j)) + b (ix2 0 j)) 0 := by
  rw [relu_at, dense_at d hd]

end Cert.KernelIdeal.Pay

end
-- ==== Proof.EncodePay.lean ====
/-
  The encoder's body at one entry.

  The body applies three dense layers with rectifier to a block of 2000 rows, the second and the third with a
  residual: with L₁ the first layer's block, L₂ the second's (of L₁) and L₃ the third's (of L₂ + L₁), it stores
  L₃ + (L₂ + L₁). The narrowing of a block to the shorter format between layers changes no extended real. Each layer,
  read at entry (p, j), is the specification's layer of row p of its input block; so the stored value at (p, j) is the
  specification's encoder of row p of the loaded inputs, at column j. No law of the extended reals is used: every step
  rewrites one side's subterm into the other's.
-/
import proofs.«139685_j39737037422592_1_alg».proof.Proof.Gen.KernelIdeal.Skeleton
import proofs.«139685_j39737037422592_1_alg».proof.Proof.Spec
import proofs.«139685_j39737037422592_1_alg».proof.Proof.LibDotPlain
import proofs.«139685_j39737037422592_1_alg».proof.Proof.DenseAt
import Idealize.ShloMosaic.Lib.ValueLayout
import Idealize.ShloMosaic.Lib.Pipeline.Value

set_option maxRecDepth 16384

noncomputable section

open scoped BigOperators

namespace Cert.KernelIdeal.Pay

open Cert.KernelIdeal Cert.KernelIdeal.Gen Cert.Spec
open Idealize.ShloMosaic Idealize.ShloMosaic.ValueIdx

/-- One dense layer with rectifier of the encoder's body, on a whole block of 2000 rows: the product with the weight
    matrix accumulated into the all-zero block, the bias row laid over the rows, the maximum with zero. -/
def encLayer (A : FVec Ideal S2000x512 .bf16) (W : FVec Ideal S512x512 .bf16) (b : FVec Ideal S1x512 .f32) :
    FVec Ideal S2000x512 .f32 :=
  maximumf
    (addf
      (matmul (F := Ideal) dot_S2000x512_S512x512_S2000x512_1_0_0_1_n_n none A
        (shapeCast S512x512 W shapeCasts_S512x512_S512x512 : FVec Ideal S512x512 .bf16)
        (constant (F := Ideal) S2000x512 .f32 0x00000000#32))
      (broadcastTo S2000x512 (shapeCast S1x512 b shapeCasts_S1x512_S1x512 : FVec Ideal S1x512 .f32)
        broadcasts_S1x512_S2000x512))
    (broadcast S2000x512 (Scalar.ofBits (F := Ideal) .f32 0x00000000#32))

/-- The layer at entry (p, j): the specification's layer of row p of the block. -/
theorem encLayer_at (A : FVec Ideal S2000x512 .bf16) (W : FVec Ideal S512x512 .bf16) (b : FVec Ideal S1x512 .f32)
    (p : Fin 2000) (j : Fin 512) :
    encLayer A W b (ix2 p j) = layer (fun q => A (ix2 p q)) (fun q j => W (ix2 q j)) (fun j => b (ix2 0 j)) j := by
  unfold encLayer
  rw [shapeCast_self W]
  exact layer_at dot_S2000x512_S512x512_S2000x512_1_0_0_1_n_n rfl none A W b _ _ p j

/-- The encoder kernel's stored value at row `p`, column `j` of its block is the encoder of row `p` of the loaded
    block of inputs, with the three weight matrices and bias rows as loaded. -/
theorem encode_pay (x0 : Vec Ideal S2000x512 .f32) (x1 : Vec Ideal S512x512 .bf16) (x2 : Vec Ideal S1x512 .f32)
    (x3 : Vec Ideal S512x512 .bf16) (x4 : Vec Ideal S1x512 .f32) (x5 : Vec Ideal S512x512 .bf16) (x6 : Vec Ideal S1x512 .f32)
    (p : Fin 2000) (j : Fin 512) :
    k0_pay1 (F := Ideal) x0 x1 x2 x3 x4 x5 x6 (ix2 p j)
      = encRow (fun q => x0 (ix2 p q)) (fun q j => x1 (ix2 q j)) (fun j => x2 (ix2 0 j))
          (fun q j => x3 (ix2 q j)) (fun j => x4 (ix2 0 j)) (fun q j => x5 (ix2 q j)) (fun j => x6 (ix2 0 j)) j := by
  -- the three layers' blocks: L₂ is formed from L₁, L₃ from L₂ + L₁
  let L1 : FVec Ideal S2000x512 .f32 := encLayer (truncf .bf16 x0 bitsLt_bf16_f32) x1 x2
  let L2 : FVec Ideal S2000x512 .f32 := encLayer (truncf .bf16 L1 bitsLt_bf16_f32) x3 x4
  let L3 : FVec Ideal S2000x512 .f32 := encLayer (truncf .bf16 (addf L2 L1) bitsLt_bf16_f32) x5 x6
  -- row p of L₁ is the first layer of row p of the inputs
  have e1 : ∀ q : Fin 512, L1 (ix2 p q)
      = layer (fun q => x0 (ix2 p q)) (fun q j => x1 (ix2 q j)) (fun j => x2 (ix2 0 j)) q :=
    fun q => encLayer_at _ x1 x2 p q
  -- row p of L₂ is the second layer of row p of L₁
  have e2 : ∀ q : Fin 512, L2 (ix2 p q)
      = layer (fun q' => layer (fun q => x0 (ix2 p q)) (fun q j => x1 (ix2 q j)) (fun j => x2 (ix2 0 j)) q')
          (fun q j => x3 (ix2 q j)) (fun j => x4 (ix2 0 j)) q :=
    fun q => (encLayer_at _ x3 x4 p q).trans
      (congrArg (fun v => layer v (fun q j => x3 (ix2 q j)) (fun j => x4 (ix2 0 j)) q) (funext e1))
  -- entry (p, j) of L₃ is the third layer of row p of L₂ + L₁
  have e3 : L3 (ix2 p j)
      = layer (fun q => layer (fun q' => layer (fun q => x0 (ix2 p q)) (fun q j => x1 (ix2 q j)) (fun j => x2 (ix2 0 j)) q')
            (fun q j => x3 (ix2 q j)) (fun j => x4 (ix2 0 j)) q
          + layer (fun q => x0 (ix2 p q)) (fun q j => x1 (ix2 q j)) (fun j => x2 (ix2 0 j)) q)
          (fun q j => x5 (ix2 q j)) (fun j => x6 (ix2 0 j)) j :=
    (encLayer_at _ x5 x6 p j).trans
      (congrArg (fun v => layer v (fun q j => x5 (ix2 q j)) (fun j => x6 (ix2 0 j)) j)
        (funext fun q => congrArg₂ (· + ·) (e2 q) (e1 q)))
  -- the stored value is L₃ + (L₂ + L₁), entry by entry
  show L3 (ix2 p j) + (L2 (ix2 p j) + L1 (ix2 p j)) = _
  exact congrArg₂ (· + ·) e3 (congrArg₂ (· + ·) (e2 j) (e1 j))

end Cert.KernelIdeal.Pay

end
-- ==== Proof.EncodeArr.lean ====
/-
  The encoder's launch, from blocks to the whole array.

  The launch has 50 grid points. At point t the body sees rows 2000·t … 2000·t + 1999 of the input array (all 512
  columns), the three weight matrices and the three bias rows whole, and stores 2000 rows of 512 numbers, which are
  written back to rows 2000·t … 2000·t + 1999 of the output array. Entry (p, j) of what is stored is the encoder of row p
  of the loaded block, so it is the encoder of row 2000·t + p of the input array: what point t writes back is its block
  of ONE function of the whole arrays, `encArr`. Row r of the output lies in the block of the point with block row
  r / 2000, so the 50 blocks cover the array and it ends holding `encArr` everywhere, whatever it held before.
-/
import proofs.«139685_j39737037422592_1_alg».proof.Proof.Gen.KernelIdeal.Frame
import proofs.«139685_j39737037422592_1_alg».proof.Proof.EncodePay
import proofs.«139685_j39737037422592_1_alg».proof.Proof.Spec
import Idealize.ShloMosaic.Lib.Pipeline.Value

set_option maxRecDepth 16384

noncomputable section

open scoped BigOperators

namespace Cert.KernelIdeal.RegionValue

open Cert.KernelIdeal Cert.KernelIdeal.Gen Cert.Spec
open Idealize.ShloMosaic Idealize.ShloMosaic.TcCoe Idealize.ShloMosaic.ValueIdx
open Idealize.ShloMosaic.Pipeline (Dat Cfg Window)

-- the TensorCore's buffer contents when the region is entered, as in the generated frame
variable (V : (c : Dev nD) → (b : Ref sig .tc) → Buf (Elt Ideal) ((c : Thread nD τ).loc b))

/-- The body reads and writes its staging buffers whole: every access starts at offset (0, 0). -/
theorem zero_offsets : (![0, 0] : Fin 2 → Nat) = fun _ => 0 := funext fun a => by fin_cases a <;> rfl

/-- The index maps of the eight windows, checked at each of the 50 grid points: the input rows' block has the block row
    of the output's block and block column 0, every weight matrix and bias row sits at block (0, 0), and the output's
    block is one of the 50 row blocks, at block column 0. -/
theorem block_indices : ∀ t : Fin cfg0.N, win0_0.index t (0 : Fin 2) = win0_7.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 49 ∧ win0_7.index t (1 : Fin 2) = 0 :=
  (by decide +kernel : ∀ t : Fin grid0.N, _)

/-- Every one of the 50 row blocks of the output is some grid point's. -/
theorem block_row_onto : ∀ q : Fin 50, ∃ t : Fin cfg0.N, win0_7.index t = ![q.val, 0] :=
  (by decide +kernel : ∀ q : Fin 50, ∃ t : Fin grid0.N, win0_7.index t = ![q.val, 0])

/-- The stored value at row `p`, column `j` of a block is the encoder of the whole array at the entry `i`, once row
    `p` of the loaded block of inputs is row `i 0` of the input array and `j` is `i`'s column; the weights and bias
    rows enter as loaded. -/
theorem pay_eq_encArr (x0 : Vec Ideal S2000x512 .f32) (X : Arr 100000 512) (x1 : Vec Ideal S512x512 .bf16)
    (x2 : Vec Ideal S1x512 .f32) (x3 : Vec Ideal S512x512 .bf16) (x4 : Vec Ideal S1x512 .f32) (x5 : Vec Ideal S512x512 .bf16)
    (x6 : Vec Ideal S1x512 .f32) (p : Fin 2000) (j : Fin 512) (i : S100000x512.Idx)
    (hrow : ∀ q : Fin 512, x0 (ix2 p q) = X (ix2 (i 0) q)) (hcol : i 1 = j) :
    k0_pay1 (F := Ideal) x0 x1 x2 x3 x4 x5 x6 (ix2 p j)
      = encArr X x1 (fun j => x2 (ix2 0 j)) x3 (fun j => x4 (ix2 0 j)) x5 (fun j => x6 (ix2 0 j)) i := by
  refine (Pay.encode_pay x0 x1 x2 x3 x4 x5 x6 p j).trans ?_
  unfold encArr
  rw [hcol, funext hrow]

/-- The first layer's weight window is its whole array at every point: its block index is (0, 0). -/
theorem block_w1 (c : Dev nD) (t : Fin cfg0.N) : (iblk0 (F := Ideal) V c 1 t : Vec Ideal S512x512 .bf16) = V c main_v0 := by
  obtain ⟨-, -, e0, e1, -⟩ := block_indices t
  funext y
  show V c main_v0 (((cfg0.win 1).blk t).view.emb y) = V c main_v0 y
  refine congrArg (V c main_v0) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The first layer's bias window is its whole one-row array at every point. -/
theorem block_b1 (c : Dev nD) (t : Fin cfg0.N) : (iblk0 (F := Ideal) V c 2 t : Vec Ideal S1x512 .f32) = V c main_v3 := by
  obtain ⟨-, -, -, -, e0, e1, -⟩ := block_indices t
  funext y
  show V c main_v3 (((cfg0.win 2).blk t).view.emb y) = V c main_v3 y
  refine congrArg (V c main_v3) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- The second layer's weight window is its whole array at every point. -/
theorem block_w2 (c : Dev nD) (t : Fin cfg0.N) : (iblk0 (F := Ideal) V c 3 t : Vec Ideal S512x512 .bf16) = V c main_v1 := by
  obtain ⟨-, -, -, -, -, -, e0, e1, -⟩ := block_indices t
  funext y
  show V c main_v1 (((cfg0.win 3).blk t).view.emb y) = V c main_v1 y
  refine congrArg (V c main_v1) (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- The second layer's bias window is its whole one-row array at every point. -/
theorem block_b2 (c : Dev nD) (t : Fin cfg0.N) : (iblk0 (F := Ideal) V c 4 t : Vec Ideal S1x512 .f32) = V c main_v4 := by
  obtain ⟨-, -, -, -, -, -, -, -, e0, e1, -⟩ := block_indices t
  funext y
  show V c main_v4 (((cfg0.win 4).blk t).view.emb y) = V c main_v4 y
  refine congrArg (V c main_v4) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- The third layer's weight window is its whole array at every point. -/
theorem block_wo (c : Dev nD) (t : Fin cfg0.N) : (iblk0 (F := Ideal) V c 5 t : Vec Ideal S512x512 .bf16) = V c main_v2 := by
  obtain ⟨-, -, -, -, -, -, -, -, -, -, e0, e1, -⟩ := block_indices t
  funext y
  show V c main_v2 (((cfg0.win 5).blk t).view.emb y) = V c main_v2 y
  refine congrArg (V c main_v2) (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- The third layer's bias window is its whole one-row array at every point. -/
theorem block_bo (c : Dev nD) (t : Fin cfg0.N) : (iblk0 (F := Ideal) V c 6 t : Vec Ideal S1x512 .f32) = V c main_v5 := by
  obtain ⟨-, -, -, -, -, -, -, -, -, -, -, -, e0, e1, -⟩ := block_indices t
  funext y
  show V c main_v5 (((cfg0.win 6).blk t).view.emb y) = V c main_v5 y
  refine congrArg (V c main_v5) (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- Row `p` of the input window's block at point `t` is the input array's row at the output block's row offset plus
    `p`: the two windows have the same block row, and the input's block column is 0. -/
theorem block_rows (c : Dev nD) (t : Fin cfg0.N) (p : Fin 2000) (j q : Fin 512) :
    (iblk0 (F := Ideal) V c 0 t : Vec Ideal S2000x512 .f32) (ix2 p q)
      = (V c main_arg0 : Arr 100000 512) (ix2 ((((cfg0.win 7).blk t).view.emb (ix2 p j) : S100000x512.Idx) 0) q) := by
  obtain ⟨e0, e1, -⟩ := block_indices t
  show V c main_arg0 (((cfg0.win 0).blk t).view.emb (ix2 p q)) = _
  refine congrArg (V c main_arg0) (funext fun a => Fin.ext ?_)
  match a with
  | ⟨0, _⟩ => show win0_0.index t (0 : Fin 2) * 2000 + 1 * p.val = win0_7.index t (0 : Fin 2) * 2000 + 1 * p.val; omega
  | ⟨1, _⟩ => show win0_0.index t (1 : Fin 2) * 512 + 1 * q.val = q.val; omega

/-- What point `t` writes back is block `t` of the encoder of the whole input array. -/
theorem flushed_eq (c : Dev nD) (t : Fin cfg0.N) :
    (dat0 (F := Ideal) V c).flushed 7 t = ((cfg0.win 7).blk t).view.read (Elt Ideal)
      (encArr (V c main_arg0) (V c main_v0) (fun j => V c main_v3 (ix2 0 j)) (V c main_v1) (fun j => V c main_v4 (ix2 0 j))
          (V c main_v2) (fun j => V c main_v5 (ix2 0 j))) := by
  show (cfg0.win 7).cut (grid0.coords t) ((dat0 (F := Ideal) V c).after 7 t) = _
  rw [after0_7]
  unfold out0_7
  rw [View.canon_unit_zero zero_offsets]
  simp only [View.ld_unit_zero (S := S2000x512) zero_offsets, View.ld_unit_zero (S := S512x512) zero_offsets,
    View.ld_unit_zero (S := S1x512) zero_offsets]
  funext y
  obtain ⟨p, j, rfl⟩ : ∃ (p : Fin 2000) (j : Fin 512), y = ix2 p j := ⟨y 0, y 1, eq_ix2 y⟩
  obtain ⟨-, -, -, -, -, -, -, -, -, -, -, -, -, -, -, e71⟩ := block_indices t
  show k0_pay1 (F := Ideal) (iblk0 V c 0 t) (iblk0 V c 1 t) (iblk0 V c 2 t) (iblk0 V c 3 t) (iblk0 V c 4 t) (iblk0 V c 5 t)
      (iblk0 V c 6 t) (ix2 p j)
    = encArr (V c main_arg0) (V c main_v0) (fun j => V c main_v3 (ix2 0 j)) (V c main_v1) (fun j => V c main_v4 (ix2 0 j))
        (V c main_v2) (fun j => V c main_v5 (ix2 0 j)) (((cfg0.win 7).blk t).view.emb (ix2 p j))
  refine (pay_eq_encArr (iblk0 V c 0 t) (V c main_arg0) (iblk0 V c 1 t) (iblk0 V c 2 t) (iblk0 V c 3 t) (iblk0 V c 4 t)
    (iblk0 V c 5 t) (iblk0 V c 6 t) p j (((cfg0.win 7).blk t).view.emb (ix2 p j)) (fun q => block_rows V c t p j q)
    (Fin.ext ?_)).trans ?_
  · show win0_7.index t (1 : Fin 2) * 512 + 1 * j.val = j.val
    omega
  · rw [block_w1 V c t, block_b1 V c t, block_w2 V c t, block_b2 V c t, block_wo V c t, block_bo V c t]

/-- An entry of the output array is in point `t`'s block iff each of its coordinates is in the block's range on its axis. -/
theorem mem_block (t : Fin cfg0.N) (i : S100000x512.Idx) :
    i ∈ ((cfg0.win 7).blk t).view.set ↔ ∀ a : Fin 2, win0_7.index t a * S2000x512.size a ≤ (i a).val ∧ (i a).val < win0_7.index t a * S2000x512.size a + S2000x512.size a := by
  show i ∈ ((View.whole main_v6).slice (win0_7.rect t)).set ↔ _
  rw [View.set_slice_whole, Rect.mem_set_unit]
  exact Iff.rfl

/-- The 50 blocks of 2000 rows tile the 100000 rows: row `r` is in the block of the point whose block row is `r / 2000`. -/
theorem covered (i : S100000x512.Idx) :
    ∃ t : Fin cfg0.N, (cfg0.win 7).flush t = true ∧ i ∈ ((cfg0.win 7).blk t).view.set := by
  have hi0 : (i 0).val < 100000 := (i 0).isLt
  have hi1 : (i 1).val < 512 := (i 1).isLt
  obtain ⟨t, ht⟩ := block_row_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 512 ≤ (i 1).val ∧ (i 1).val < win0_7.index t (1 : Fin 2) * 512 + 512; omega

/-- After the encoder's launch its output array holds, row by row, the encoder of the input array's row, whatever the
    buffers held at entry: each grid point writes back 2000 whole rows and the 50 points' row ranges tile the 100000 rows. -/
theorem encode_arr (c : Dev nD) :
    (dat0 (F := Ideal) V c).arrAt 7 cfg0.N
      = encArr (V c main_arg0) (V c main_v0) (fun j => V c main_v3 (ix2 0 j)) (V c main_v1) (fun j => V c main_v4 (ix2 0 j))
          (V c main_v2) (fun j => V c main_v5 (ix2 0 j)) :=
  (dat0 (F := Ideal) V c).arrAt_eq_of_cover 7 _ (fun t _ => flushed_eq V c t) covered

end Cert.KernelIdeal.RegionValue

end
-- ==== Proof.ProjectPay.lean ====
/-
  The scorer's body at one row.

  The body forms, on blocks of 2000 rows, a first layer from two products (one block of encoded rows against the upper
  half of the weight matrix, the other against the lower half), their sum, a bias row and the rectifier; a second dense
  layer with rectifier; and a last layer with a one-column weight matrix and one bias, without rectifier. The narrowing
  of a block to the shorter format between layers changes no extended real. Read at an entry, the first layer is the
  specification's first layer of row p of the two blocks, the second the specification's layer of row p of the first
  layer's block, and the last the sum over q of the second layer's (p, q) entry times the weight's q-th entry, plus the
  bias: together the specification's scorer of row p. No law of the extended reals is used: every step rewrites one
  side's subterm into the other's. The two launches store the same composition of the three layers.
-/
import proofs.«139685_j39737037422592_1_alg».proof.Proof.Gen.KernelIdeal.Skeleton
import proofs.«139685_j39737037422592_1_alg».proof.Proof.Spec
import proofs.«139685_j39737037422592_1_alg».proof.Proof.LibDotPlain
import proofs.«139685_j39737037422592_1_alg».proof.Proof.DenseAt
import Idealize.ShloMosaic.Lib.ValueLayout
import Idealize.ShloMosaic.Lib.Pipeline.Value

set_option maxRecDepth 16384

noncomputable section

open scoped BigOperators

namespace Cert.KernelIdeal.Pay

open Cert.KernelIdeal Cert.KernelIdeal.Gen Cert.Spec
open Idealize.ShloMosaic Idealize.ShloMosaic.ValueIdx

/-- The scorer's first layer on whole blocks of 2000 rows: the two products, each accumulated into the all-zero block,
    their sum, the bias row laid over the rows, the maximum with zero. -/
def scoreFirst (S D : FVec Ideal S2000x512 .bf16) (T B : FVec Ideal S512x512 .bf16) (b : FVec Ideal S1x512 .f32) :
    FVec Ideal S2000x512 .f32 :=
  maximumf
    (addf
      (addf
        (matmul (F := Ideal) dot_S2000x512_S512x512_S2000x512_1_0_0_1_n_n none
          (shapeCast S2000x512 S shapeCasts_S2000x512_S2000x512 : FVec Ideal S2000x512 .bf16)
          (shapeCast S512x512 T shapeCasts_S512x512_S512x512 : FVec Ideal S512x512 .bf16)
          (constant (F := Ideal) S2000x512 .f32 0x00000000#32))
        (matmul (F := Ideal) dot_S2000x512_S512x512_S2000x512_1_0_0_1_n_n none
          (shapeCast S2000x512 D shapeCasts_S2000x512_S2000x512 : FVec Ideal S2000x512 .bf16)
          (shapeCast S512x512 B shapeCasts_S512x512_S512x512 : FVec Ideal S512x512 .bf16)
          (constant (F := Ideal) S2000x512 .f32 0x00000000#32)))
      (broadcastTo S2000x512 (shapeCast S1x512 b shapeCasts_S1x512_S1x512 : FVec Ideal S1x512 .f32)
        broadcasts_S1x512_S2000x512))
    (broadcast S2000x512 (Scalar.ofBits (F := Ideal) .f32 0x00000000#32))

/-- The first layer at entry (p, j): the specification's first layer of row p of the two blocks. -/
theorem scoreFirst_at (S D : FVec Ideal S2000x512 .bf16) (T B : FVec Ideal S512x512 .bf16) (b : FVec Ideal S1x512 .f32)
    (p : Fin 2000) (j : Fin 512) :
    scoreFirst S D T B b (ix2 p j)
      = projFirst (fun q => S (ix2 p q)) (fun q => D (ix2 p q)) (fun q j => T (ix2 q j)) (fun q j => B (ix2 q j))
          (fun j => b (ix2 0 j)) j := by
  unfold scoreFirst
  rw [shapeCast_self S, shapeCast_self D, shapeCast_self T, shapeCast_self B]
  refine (relu_at _ _).trans ?_
  refine congrArg (fun t => max t 0) ?_
  refine (addf_apply _ _ _).trans ?_
  refine congrArg₂ (· + ·) ((addf_apply _ _ _).trans (congrArg₂ (· + ·) ?_ ?_)) (bias_at b _ _ p j)
  · exact matmul_at dot_S2000x512_S512x512_S2000x512_1_0_0_1_n_n rfl none S T p j
  · exact matmul_at dot_S2000x512_S512x512_S2000x512_1_0_0_1_n_n rfl none D B p j

/-- The scorer's second layer on a whole block of 2000 rows: one product, the bias row, the maximum with zero. -/
def scoreSecond (A : FVec Ideal S2000x512 .bf16) (W : FVec Ideal S512x512 .bf16) (b : FVec Ideal S1x512 .f32) :
    FVec Ideal S2000x512 .f32 :=
  maximumf
    (addf
      (matmul (F := Ideal) dot_S2000x512_S512x512_S2000x512_1_0_0_1_n_n none A
        (shapeCast S512x512 W shapeCasts_S512x512_S512x512 : FVec Ideal S512x512 .bf16)
        (constant (F := Ideal) S2000x512 .f32 0x00000000#32))
      (broadcastTo S2000x512 (shapeCast S1x512 b shapeCasts_S1x512_S1x512 : FVec Ideal S1x512 .f32)
        broadcasts_S1x512_S2000x512))
    (broadcast S2000x512 (Scalar.ofBits (F := Ideal) .f32 0x00000000#32))

/-- The second layer at entry (p, j): the specification's layer of row p of the block. -/
theorem scoreSecond_at (A : FVec Ideal S2000x512 .bf16) (W : FVec Ideal S512x512 .bf16) (b : FVec Ideal S1x512 .f32)
    (p : Fin 2000) (j : Fin 512) :
    scoreSecond A W b (ix2 p j) = layer (fun q => A (ix2 p q)) (fun q j => W (ix2 q j)) (fun j => b (ix2 0 j)) j := by
  unfold scoreSecond
  rw [shapeCast_self W]
  exact layer_at dot_S2000x512_S512x512_S2000x512_1_0_0_1_n_n rfl none A W b _ _ p j

/-- The scorer's last layer on a whole block of 2000 rows: the product with the one-column weight matrix and the one
    bias laid over the rows, a column of 2000 numbers. -/
def scoreLast (A : FVec Ideal S2000x512 .bf16) (w : FVec Ideal S512x1 .bf16) (b : FVec Ideal S1x1 .f32) :
    FVec Ideal S2000x1 .f32 :=
  addf
    (matmul (F := Ideal) dot_S2000x512_S512x1_S2000x1_1_0_0_1_n_n none A
      (shapeCast S512x1 w shapeCasts_S512x1_S512x1 : FVec Ideal S512x1 .bf16)
      (constant (F := Ideal) S2000x1 .f32 0x00000000#32))
    (broadcastTo S2000x1 (shapeCast S1x1 b shapeCasts_S1x1_S1x1 : FVec Ideal S1x1 .f32) broadcasts_S1x1_S2000x1)

/-- The last layer at row p: the sum over q of A (p, q) · w (q, 0), plus the one bias. -/
theorem scoreLast_at (A : FVec Ideal S2000x512 .bf16) (w : FVec Ideal S512x1 .bf16) (b : FVec Ideal S1x1 .f32)
    (p : Fin 2000) :
    scoreLast A w b (ix2 p 0) = (∑ q : Fin 512, A (ix2 p q) * w (ix2 q 0)) + b (ix2 0 0) := by
  unfold scoreLast
  rw [shapeCast_self w]
  exact dense_at dot_S2000x512_S512x1_S2000x1_1_0_0_1_n_n rfl none A w b _ _ p 0

/-- The three layers composed, at row p: the specification's scorer of row p of the two blocks. Each launch of the
    scorer stores this composition. -/
theorem scorer_at (v0 v2 : FVec Ideal S2000x512 .bf16) (v4 v7 : FVec Ideal S512x512 .bf16) (v11 : FVec Ideal S1x512 .f32)
    (v18 : FVec Ideal S512x512 .bf16) (v21 : FVec Ideal S1x512 .f32) (v28 : FVec Ideal S512x1 .bf16)
    (v31 : FVec Ideal S1x1 .f32) (p : Fin 2000) :
    scoreLast (truncf .bf16 (scoreSecond (truncf .bf16 (scoreFirst v0 v2 v4 v7 v11) bitsLt_bf16_f32) v18 v21) bitsLt_bf16_f32)
        v28 v31 (ix2 p 0)
      = projRow (fun q => v0 (ix2 p q)) (fun q => v2 (ix2 p q)) (fun q j => v4 (ix2 q j)) (fun q j => v7 (ix2 q j))
          (fun j => v11 (ix2 0 j)) (fun q j => v18 (ix2 q j)) (fun j => v21 (ix2 0 j)) (fun q => v28 (ix2 q 0)) (v31 (ix2 0 0)) := by
  refine (scoreLast_at _ v28 v31 p).trans ?_
  refine congrArg (fun t => t + v31 (ix2 0 0)) ?_
  refine Finset.sum_congr rfl fun q _ => congrArg (fun t => t * v28 (ix2 q 0)) ?_
  refine (scoreSecond_at _ v18 v21 p q).trans ?_
  exact congrArg (fun v => layer v (fun q j => v18 (ix2 q j)) (fun j => v21 (ix2 0 j)) q)
    (funext fun q' => scoreFirst_at v0 v2 v4 v7 v11 p q')

/-- The scorer kernel's stored value at row `p` of its block (first launch) is the scorer of row `p` of the two loaded
    blocks of encoded rows, with the weights and biases as loaded. -/
theorem project_pay1 (v0 v2 : Vec Ideal S2000x512 .bf16) (v4 v7 : Vec Ideal S512x512 .bf16) (v11 : Vec Ideal S1x512 .f32)
    (v18 : Vec Ideal S512x512 .bf16) (v21 : Vec Ideal S1x512 .f32) (v28 : Vec Ideal S512x1 .bf16) (v31 : Vec Ideal S1x1 .f32)
    (p : Fin 2000) :
    k1_pay1 (F := Ideal) v0 v2 v4 v7 v11 v18 v21 v28 v31 (ix2 p 0)
      = projRow (fun q => v0 (ix2 p q)) (fun q => v2 (ix2 p q)) (fun q j => v4 (ix2 q j)) (fun q j => v7 (ix2 q j))
          (fun j => v11 (ix2 0 j)) (fun q j => v18 (ix2 q j)) (fun j => v21 (ix2 0 j)) (fun q => v28 (ix2 q 0)) (v31 (ix2 0 0)) :=
  scorer_at v0 v2 v4 v7 v11 v18 v21 v28 v31 p

/-- The same for the second launch of the scorer kernel. -/
theorem project_pay2 (v0 v2 : Vec Ideal S2000x512 .bf16) (v4 v7 : Vec Ideal S512x512 .bf16) (v11 : Vec Ideal S1x512 .f32)
    (v18 : Vec Ideal S512x512 .bf16) (v21 : Vec Ideal S1x512 .f32) (v28 : Vec Ideal S512x1 .bf16) (v31 : Vec Ideal S1x1 .f32)
    (p : Fin 2000) :
    k2_pay1 (F := Ideal) v0 v2 v4 v7 v11 v18 v21 v28 v31 (ix2 p 0)
      = projRow (fun q => v0 (ix2 p q)) (fun q => v2 (ix2 p q)) (fun q j => v4 (ix2 q j)) (fun q j => v7 (ix2 q j))
          (fun j => v11 (ix2 0 j)) (fun q j => v18 (ix2 q j)) (fun j => v21 (ix2 0 j)) (fun q => v28 (ix2 q 0)) (v31 (ix2 0 0)) :=
  scorer_at v0 v2 v4 v7 v11 v18 v21 v28 v31 p

end Cert.KernelIdeal.Pay

end
-- ==== Proof.ProjectArr1.lean ====
import proofs.«139685_j39737037422592_1_alg».proof.Proof.Gen.KernelIdeal.Frame
import proofs.«139685_j39737037422592_1_alg».proof.Proof.ProjectPay
import proofs.«139685_j39737037422592_1_alg».proof.Proof.Spec
import Idealize.ShloMosaic.Lib.Pipeline.Value

set_option maxRecDepth 16384

noncomputable section

open scoped BigOperators

namespace Cert.KernelIdeal.RegionValue

open Cert.KernelIdeal Cert.KernelIdeal.Gen Cert.Spec
open Idealize.ShloMosaic Idealize.ShloMosaic.TcCoe Idealize.ShloMosaic.ValueIdx
open Idealize.ShloMosaic.Pipeline (Dat Cfg Window)

-- the TensorCore's buffer contents when the region is entered, as in the generated frame
variable (V : (c : Dev nD) → (b : Ref sig .tc) → Buf (Elt Ideal) ((c : Thread nD τ).loc b))

/-- The zero offsets, however spelt. -/
theorem zero_offsets1 : (![0, 0] : Fin 2 → Nat) = fun _ => 0 := funext fun a => by fin_cases a <;> rfl

/-- The index maps, decided over the 50 grid points: the two tables' blocks move with the output column's block
    along the rows, every other block index is zero, and the output's row-block index stays below 50. -/
theorem index_facts1 : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) ≤ 49 ∧ win1_9.index t (1 : Fin 2) = 0 :=
  (by decide +kernel : ∀ t : Fin grid1.N, _)

/-- Every row block of the output column is some grid point's. -/
theorem index_onto1 : ∀ q : Fin 50, ∃ t : Fin cfg1.N, win1_9.index t = ![q.val, 0] :=
  (by decide +kernel : ∀ q : Fin 50, ∃ t : Fin grid1.N, win1_9.index t = ![q.val, 0])

/-- The scorer kernel's stored value at row `p` of its block is the scorer of row `r` of the two tables, once the two
    loaded blocks' rows `p` are the tables' rows `r` and the other loaded blocks are the weight and bias arrays whole. -/
theorem block_row1 (S D : Arr 100000 512) (T B : Arr 512 512) (b1 : Arr 1 512) (P2 : Arr 512 512) (b2 : Arr 1 512)
    (w : Arr 512 1) (b3 : Arr 1 1)
    (x0 x1 : Vec Ideal S2000x512 .bf16) (x2 x3 : Vec Ideal S512x512 .bf16) (x4 : Vec Ideal S1x512 .f32)
    (x5 : Vec Ideal S512x512 .bf16) (x6 : Vec Ideal S1x512 .f32) (x7 : Vec Ideal S512x1 .bf16) (x8 : Vec Ideal S1x1 .f32)
    (p : Fin 2000) (r : Fin 100000)
    (h0 : ∀ q : Fin 512, x0 (ix2 p q) = S (ix2 r q)) (h1 : ∀ q : Fin 512, x1 (ix2 p q) = D (ix2 r q))
    (h2 : x2 = T) (h3 : x3 = B) (h4 : x4 = b1) (h5 : x5 = P2) (h6 : x6 = b2) (h7 : x7 = w) (h8 : x8 = b3) :
    k1_pay1 (F := Ideal) x0 x1 x2 x3 x4 x5 x6 x7 x8 (ix2 p 0)
      = projArr S D T B (fun j => b1 (ix2 0 j)) P2 (fun j => b2 (ix2 0 j)) (fun q => w (ix2 q 0)) (b3 (ix2 0 0)) (ix2 r 0) := by
  subst h2 h3 h4 h5 h6 h7 h8
  refine (Pay.project_pay1 x0 x1 x2 x3 x4 x5 x6 x7 x8 p).trans ?_
  have e0 : (fun q : Fin 512 => x0 (ix2 p q)) = fun q => S (ix2 r q) := funext h0
  have e1 : (fun q : Fin 512 => x1 (ix2 p q)) = fun q => D (ix2 r q) := funext h1
  rw [e0, e1]
  rfl

/-- A block of the first table at a grid point: row `p` of the block is the table's row `index × 2000 + p`. -/
theorem table_block1_0 (c : Dev nD) (t : Fin cfg1.N) (p : Fin 2000) (q : Fin 512) (r : Fin 100000)
    (hr : r.val = win1_9.index t (0 : Fin 2) * 2000 + p.val) :
    iblk1 V c 0 t (ix2 p q) = V c main_v22 (ix2 r q) := by
  show V c main_v22 (((cfg1.win 0).blk t).view.emb (ix2 p q)) = V c main_v22 (ix2 r q)
  obtain ⟨e0, e1, -⟩ := index_facts1 t
  refine congrArg (V c main_v22) ?_
  funext a; apply Fin.ext
  match a with
  | ⟨0, _⟩ => show win1_0.index t (0 : Fin 2) * 2000 + 1 * p.val = r.val; omega
  | ⟨1, _⟩ => show win1_0.index t (1 : Fin 2) * 512 + 1 * q.val = q.val; omega

/-- A block of the second table at a grid point: row `p` of the block is the table's row `index × 2000 + p`. -/
theorem table_block1_1 (c : Dev nD) (t : Fin cfg1.N) (p : Fin 2000) (q : Fin 512) (r : Fin 100000)
    (hr : r.val = win1_9.index t (0 : Fin 2) * 2000 + p.val) :
    iblk1 V c 1 t (ix2 p q) = V c main_v29 (ix2 r q) := by
  show V c main_v29 (((cfg1.win 1).blk t).view.emb (ix2 p q)) = V c main_v29 (ix2 r q)
  obtain ⟨-, -, e0, e1, -⟩ := index_facts1 t
  refine congrArg (V c main_v29) ?_
  funext a; apply Fin.ext
  match a with
  | ⟨0, _⟩ => show win1_1.index t (0 : Fin 2) * 2000 + 1 * p.val = r.val; omega
  | ⟨1, _⟩ => show win1_1.index t (1 : Fin 2) * 512 + 1 * q.val = q.val; omega

/-- Window 2 is its whole array at every grid point. -/
theorem whole_block1_2 (c : Dev nD) (t : Fin cfg1.N) : iblk1 V c 2 t = V c main_v8 := by
  funext y
  show V c main_v8 (((cfg1.win 2).blk t).view.emb y) = V c main_v8 y
  obtain ⟨-, -, -, -, e2_0, e2_1, e3_0, e3_1, e4_0, e4_1, e5_0, e5_1, e6_0, e6_1, e7_0, e7_1, e8_0, e8_1, -⟩ := index_facts1 t
  refine congrArg (V c main_v8) ?_
  funext a; apply Fin.ext
  match a with
  | ⟨0, _⟩ => show win1_2.index t (0 : Fin 2) * 512 + 1 * (y 0).val = (y 0).val; omega
  | ⟨1, _⟩ => show win1_2.index t (1 : Fin 2) * 512 + 1 * (y 1).val = (y 1).val; omega

/-- Window 3 is its whole array at every grid point. -/
theorem whole_block1_3 (c : Dev nD) (t : Fin cfg1.N) : iblk1 V c 3 t = V c main_v10 := by
  funext y
  show V c main_v10 (((cfg1.win 3).blk t).view.emb y) = V c main_v10 y
  obtain ⟨-, -, -, -, e2_0, e2_1, e3_0, e3_1, e4_0, e4_1, e5_0, e5_1, e6_0, e6_1, e7_0, e7_1, e8_0, e8_1, -⟩ := index_facts1 t
  refine congrArg (V c main_v10) ?_
  funext a; apply Fin.ext
  match a with
  | ⟨0, _⟩ => show win1_3.index t (0 : Fin 2) * 512 + 1 * (y 0).val = (y 0).val; omega
  | ⟨1, _⟩ => show win1_3.index t (1 : Fin 2) * 512 + 1 * (y 1).val = (y 1).val; omega

/-- Window 4 is its whole array at every grid point. -/
theorem whole_block1_4 (c : Dev nD) (t : Fin cfg1.N) : iblk1 V c 4 t = V c main_v11 := by
  funext y
  show V c main_v11 (((cfg1.win 4).blk t).view.emb y) = V c main_v11 y
  obtain ⟨-, -, -, -, e2_0, e2_1, e3_0, e3_1, e4_0, e4_1, e5_0, e5_1, e6_0, e6_1, e7_0, e7_1, e8_0, e8_1, -⟩ := index_facts1 t
  refine congrArg (V c main_v11) ?_
  funext a; apply Fin.ext
  match a with
  | ⟨0, _⟩ => show win1_4.index t (0 : Fin 2) * 1 + 1 * (y 0).val = (y 0).val; omega
  | ⟨1, _⟩ => show win1_4.index t (1 : Fin 2) * 512 + 1 * (y 1).val = (y 1).val; omega

/-- Window 5 is its whole array at every grid point. -/
theorem whole_block1_5 (c : Dev nD) (t : Fin cfg1.N) : iblk1 V c 5 t = V c main_v12 := by
  funext y
  show V c main_v12 (((cfg1.win 5).blk t).view.emb y) = V c main_v12 y
  obtain ⟨-, -, -, -, e2_0, e2_1, e3_0, e3_1, e4_0, e4_1, e5_0, e5_1, e6_0, e6_1, e7_0, e7_1, e8_0, e8_1, -⟩ := index_facts1 t
  refine congrArg (V c main_v12) ?_
  funext a; apply Fin.ext
  match a with
  | ⟨0, _⟩ => show win1_5.index t (0 : Fin 2) * 512 + 1 * (y 0).val = (y 0).val; omega
  | ⟨1, _⟩ => show win1_5.index t (1 : Fin 2) * 512 + 1 * (y 1).val = (y 1).val; omega

/-- Window 6 is its whole array at every grid point. -/
theorem whole_block1_6 (c : Dev nD) (t : Fin cfg1.N) : iblk1 V c 6 t = V c main_v13 := by
  funext y
  show V c main_v13 (((cfg1.win 6).blk t).view.emb y) = V c main_v13 y
  obtain ⟨-, -, -, -, e2_0, e2_1, e3_0, e3_1, e4_0, e4_1, e5_0, e5_1, e6_0, e6_1, e7_0, e7_1, e8_0, e8_1, -⟩ := index_facts1 t
  refine congrArg (V c main_v13) ?_
  funext a; apply Fin.ext
  match a with
  | ⟨0, _⟩ => show win1_6.index t (0 : Fin 2) * 1 + 1 * (y 0).val = (y 0).val; omega
  | ⟨1, _⟩ => show win1_6.index t (1 : Fin 2) * 512 + 1 * (y 1).val = (y 1).val; omega

/-- Window 7 is its whole array at every grid point. -/
theorem whole_block1_7 (c : Dev nD) (t : Fin cfg1.N) : iblk1 V c 7 t = V c main_v14 := by
  funext y
  show V c main_v14 (((cfg1.win 7).blk t).view.emb y) = V c main_v14 y
  obtain ⟨-, -, -, -, e2_0, e2_1, e3_0, e3_1, e4_0, e4_1, e5_0, e5_1, e6_0, e6_1, e7_0, e7_1, e8_0, e8_1, -⟩ := index_facts1 t
  refine congrArg (V c main_v14) ?_
  funext a; apply Fin.ext
  match a with
  | ⟨0, _⟩ => show win1_7.index t (0 : Fin 2) * 512 + 1 * (y 0).val = (y 0).val; omega
  | ⟨1, _⟩ => show win1_7.index t (1 : Fin 2) * 1 + 1 * (y 1).val = (y 1).val; omega

/-- Window 8 is its whole array at every grid point. -/
theorem whole_block1_8 (c : Dev nD) (t : Fin cfg1.N) : iblk1 V c 8 t = V c main_v15 := by
  funext y
  show V c main_v15 (((cfg1.win 8).blk t).view.emb y) = V c main_v15 y
  obtain ⟨-, -, -, -, e2_0, e2_1, e3_0, e3_1, e4_0, e4_1, e5_0, e5_1, e6_0, e6_1, e7_0, e7_1, e8_0, e8_1, -⟩ := index_facts1 t
  refine congrArg (V c main_v15) ?_
  funext a; apply Fin.ext
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- What a grid point writes back is its block of the scorer's column of the arrays as the region finds them. -/
theorem flushed_eq1 (c : Dev nD) (t : Fin cfg1.N) :
    (dat1 (F := Ideal) V c).flushed 9 t = ((cfg1.win 9).blk t).view.read (Elt Ideal)
      (projArr (V c main_v22) (V c main_v29) (V c main_v8) (V c main_v10) (fun j => V c main_v11 (ix2 0 j)) (V c main_v12)
          (fun j => V c main_v13 (ix2 0 j)) (fun q => V c main_v14 (ix2 q 0)) (V c main_v15 (ix2 0 0))) := by
  show (cfg1.win 9).cut (grid1.coords t) ((dat1 (F := Ideal) V c).after 9 t) = _
  rw [after1_9]
  unfold out1_9
  rw [View.canon_unit_zero zero_offsets1]
  simp only [View.ld_unit_zero (S := S2000x512) zero_offsets1, View.ld_unit_zero (S := S512x512) zero_offsets1,
    View.ld_unit_zero (S := S1x512) zero_offsets1, View.ld_unit_zero (S := S512x1) zero_offsets1,
    View.ld_unit_zero (S := S1x1) zero_offsets1]
  funext y
  obtain ⟨p, q, rfl⟩ : ∃ (p : Fin 2000) (q : Fin 1), y = ix2 p q := ⟨y 0, y 1, eq_ix2 y⟩
  obtain rfl : q = 0 := Subsingleton.elim _ _
  have hfacts := index_facts1 t
  have hlt : win1_9.index t (0 : Fin 2) * 2000 + p.val < 100000 := by
    have hp : p.val < 2000 := p.isLt
    omega
  show k1_pay1 (F := Ideal) (iblk1 V c 0 t) (iblk1 V c 1 t) (iblk1 V c 2 t) (iblk1 V c 3 t) (iblk1 V c 4 t)
      (iblk1 V c 5 t) (iblk1 V c 6 t) (iblk1 V c 7 t) (iblk1 V c 8 t) (ix2 p 0)
    = projArr (V c main_v22) (V c main_v29) (V c main_v8) (V c main_v10) (fun j => V c main_v11 (ix2 0 j)) (V c main_v12)
          (fun j => V c main_v13 (ix2 0 j)) (fun q => V c main_v14 (ix2 q 0)) (V c main_v15 (ix2 0 0)) (((cfg1.win 9).blk t).view.emb (ix2 p 0))
  refine (block_row1 (V c main_v22) (V c main_v29) (V c main_v8) (V c main_v10) (V c main_v11) (V c main_v12) (V c main_v13)
    (V c main_v14) (V c main_v15) (iblk1 V c 0 t) (iblk1 V c 1 t) (iblk1 V c 2 t) (iblk1 V c 3 t) (iblk1 V c 4 t)
    (iblk1 V c 5 t) (iblk1 V c 6 t) (iblk1 V c 7 t) (iblk1 V c 8 t) p ⟨_, hlt⟩
    (fun q => table_block1_0 V c t p q _ rfl) (fun q => table_block1_1 V c t p q _ rfl)
    (whole_block1_2 V c t) (whole_block1_3 V c t) (whole_block1_4 V c t) (whole_block1_5 V c t)
    (whole_block1_6 V c t) (whole_block1_7 V c t) (whole_block1_8 V c t)).trans ?_
  refine congrArg (projArr (V c main_v22) (V c main_v29) (V c main_v8) (V c main_v10) (fun j => V c main_v11 (ix2 0 j)) (V c main_v12)
          (fun j => V c main_v13 (ix2 0 j)) (fun q => V c main_v14 (ix2 q 0)) (V c main_v15 (ix2 0 0))) ?_
  funext a; apply Fin.ext
  match a with
  | ⟨0, _⟩ => show win1_9.index t (0 : Fin 2) * 2000 + p.val = win1_9.index t (0 : Fin 2) * 2000 + 1 * p.val; omega
  | ⟨1, _⟩ => show (0 : Nat) = win1_9.index t (1 : Fin 2) * 1 + 1 * 0; omega

/-- An index of the output column is in a grid point's block iff each coordinate is in the block's range on its axis. -/
theorem mem_blk1 (t : Fin cfg1.N) (i : S100000x1.Idx) :
    i ∈ ((cfg1.win 9).blk t).view.set ↔ ∀ a : Fin 2, win1_9.index t a * S2000x1.size a ≤ (i a).val ∧ (i a).val < win1_9.index t a * S2000x1.size a + S2000x1.size a := by
  show i ∈ ((View.whole main_v44).slice (win1_9.rect t)).set ↔ _
  rw [View.set_slice_whole, Rect.mem_set_unit]
  exact Iff.rfl

/-- The 50 blocks of 2000 rows tile the 100000 rows: row `r` is in the block of the point whose row-block index is `r / 2000`. -/
theorem cover1 (i : S100000x1.Idx) :
    ∃ t : Fin cfg1.N, (cfg1.win 9).flush t = true ∧ i ∈ ((cfg1.win 9).blk t).view.set := by
  have hi0 : (i 0).val < 100000 := (i 0).isLt
  have hi1 : (i 1).val < 1 := (i 1).isLt
  obtain ⟨t, ht⟩ := index_onto1 ⟨(i 0).val / 2000, by omega⟩
  have q0 : win1_9.index t (0 : Fin 2) = (i 0).val / 2000 := congrFun ht 0
  have q1 : win1_9.index t (1 : Fin 2) = 0 := congrFun ht 1
  refine ⟨t, flush1_9 t, ?_⟩
  rw [mem_blk1]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 1 ≤ (i 1).val ∧ (i 1).val < win1_9.index t (1 : Fin 2) * 1 + 1; omega

/-- After the scorer's first launch its output column holds, row by row, the scorer of the two input arrays' rows, whatever
    the buffers held at entry: each grid point writes back 2000 whole rows and the 50 points' row ranges tile the 100000 rows. -/
theorem project_arr1 (c : Dev nD) :
    (dat1 (F := Ideal) V c).arrAt 9 cfg1.N
      = projArr (V c main_v22) (V c main_v29) (V c main_v8) (V c main_v10) (fun j => V c main_v11 (ix2 0 j)) (V c main_v12)
          (fun j => V c main_v13 (ix2 0 j)) (fun q => V c main_v14 (ix2 q 0)) (V c main_v15 (ix2 0 0)) :=
  (dat1 (F := Ideal) V c).arrAt_eq_of_cover 9 _ (fun t _ => flushed_eq1 V c t) (cover1)

end Cert.KernelIdeal.RegionValue

end
-- ==== Proof.ProjectArr2.lean ====
import proofs.«139685_j39737037422592_1_alg».proof.Proof.Gen.KernelIdeal.Frame
import proofs.«139685_j39737037422592_1_alg».proof.Proof.ProjectPay
import proofs.«139685_j39737037422592_1_alg».proof.Proof.Spec
import Idealize.ShloMosaic.Lib.Pipeline.Value

set_option maxRecDepth 16384

noncomputable section

open scoped BigOperators

namespace Cert.KernelIdeal.RegionValue

open Cert.KernelIdeal Cert.KernelIdeal.Gen Cert.Spec
open Idealize.ShloMosaic Idealize.ShloMosaic.TcCoe Idealize.ShloMosaic.ValueIdx
open Idealize.ShloMosaic.Pipeline (Dat Cfg Window)

-- the TensorCore's buffer contents when the region is entered, as in the generated frame
variable (V : (c : Dev nD) → (b : Ref sig .tc) → Buf (Elt Ideal) ((c : Thread nD τ).loc b))

/-- The zero offsets, however spelt. -/
theorem zero_offsets2 : (![0, 0] : Fin 2 → Nat) = fun _ => 0 := funext fun a => by fin_cases a <;> rfl

/-- The index maps, decided over the 50 grid points: the two tables' blocks move with the output column's block
    along the rows, every other block index is zero, and the output's row-block index stays below 50. -/
theorem index_facts2 : ∀ t : Fin cfg2.N,
    win2_0.index t (0 : Fin 2) = win2_9.index t (0 : Fin 2) ∧ win2_0.index t (1 : Fin 2) = 0
    ∧ win2_1.index t (0 : Fin 2) = win2_9.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) ≤ 49 ∧ win2_9.index t (1 : Fin 2) = 0 :=
  (by decide +kernel : ∀ t : Fin grid2.N, _)

/-- Every row block of the output column is some grid point's. -/
theorem index_onto2 : ∀ q : Fin 50, ∃ t : Fin cfg2.N, win2_9.index t = ![q.val, 0] :=
  (by decide +kernel : ∀ q : Fin 50, ∃ t : Fin grid2.N, win2_9.index t = ![q.val, 0])

/-- The scorer kernel's stored value at row `p` of its block is the scorer of row `r` of the two tables, once the two
    loaded blocks' rows `p` are the tables' rows `r` and the other loaded blocks are the weight and bias arrays whole. -/
theorem block_row2 (S D : Arr 100000 512) (T B : Arr 512 512) (b1 : Arr 1 512) (P2 : Arr 512 512) (b2 : Arr 1 512)
    (w : Arr 512 1) (b3 : Arr 1 1)
    (x0 x1 : Vec Ideal S2000x512 .bf16) (x2 x3 : Vec Ideal S512x512 .bf16) (x4 : Vec Ideal S1x512 .f32)
    (x5 : Vec Ideal S512x512 .bf16) (x6 : Vec Ideal S1x512 .f32) (x7 : Vec Ideal S512x1 .bf16) (x8 : Vec Ideal S1x1 .f32)
    (p : Fin 2000) (r : Fin 100000)
    (h0 : ∀ q : Fin 512, x0 (ix2 p q) = S (ix2 r q)) (h1 : ∀ q : Fin 512, x1 (ix2 p q) = D (ix2 r q))
    (h2 : x2 = T) (h3 : x3 = B) (h4 : x4 = b1) (h5 : x5 = P2) (h6 : x6 = b2) (h7 : x7 = w) (h8 : x8 = b3) :
    k2_pay1 (F := Ideal) x0 x1 x2 x3 x4 x5 x6 x7 x8 (ix2 p 0)
      = projArr S D T B (fun j => b1 (ix2 0 j)) P2 (fun j => b2 (ix2 0 j)) (fun q => w (ix2 q 0)) (b3 (ix2 0 0)) (ix2 r 0) := by
  subst h2 h3 h4 h5 h6 h7 h8
  refine (Pay.project_pay2 x0 x1 x2 x3 x4 x5 x6 x7 x8 p).trans ?_
  have e0 : (fun q : Fin 512 => x0 (ix2 p q)) = fun q => S (ix2 r q) := funext h0
  have e1 : (fun q : Fin 512 => x1 (ix2 p q)) = fun q => D (ix2 r q) := funext h1
  rw [e0, e1]
  rfl

/-- A block of the first table at a grid point: row `p` of the block is the table's row `index × 2000 + p`. -/
theorem table_block2_0 (c : Dev nD) (t : Fin cfg2.N) (p : Fin 2000) (q : Fin 512) (r : Fin 100000)
    (hr : r.val = win2_9.index t (0 : Fin 2) * 2000 + p.val) :
    iblk2 V c 0 t (ix2 p q) = V c main_v36 (ix2 r q) := by
  show V c main_v36 (((cfg2.win 0).blk t).view.emb (ix2 p q)) = V c main_v36 (ix2 r q)
  obtain ⟨e0, e1, -⟩ := index_facts2 t
  refine congrArg (V c main_v36) ?_
  funext a; apply Fin.ext
  match a with
  | ⟨0, _⟩ => show win2_0.index t (0 : Fin 2) * 2000 + 1 * p.val = r.val; omega
  | ⟨1, _⟩ => show win2_0.index t (1 : Fin 2) * 512 + 1 * q.val = q.val; omega

/-- A block of the second table at a grid point: row `p` of the block is the table's row `index × 2000 + p`. -/
theorem table_block2_1 (c : Dev nD) (t : Fin cfg2.N) (p : Fin 2000) (q : Fin 512) (r : Fin 100000)
    (hr : r.val = win2_9.index t (0 : Fin 2) * 2000 + p.val) :
    iblk2 V c 1 t (ix2 p q) = V c main_v43 (ix2 r q) := by
  show V c main_v43 (((cfg2.win 1).blk t).view.emb (ix2 p q)) = V c main_v43 (ix2 r q)
  obtain ⟨-, -, e0, e1, -⟩ := index_facts2 t
  refine congrArg (V c main_v43) ?_
  funext a; apply Fin.ext
  match a with
  | ⟨0, _⟩ => show win2_1.index t (0 : Fin 2) * 2000 + 1 * p.val = r.val; omega
  | ⟨1, _⟩ => show win2_1.index t (1 : Fin 2) * 512 + 1 * q.val = q.val; omega

/-- Window 2 is its whole array at every grid point. -/
theorem whole_block2_2 (c : Dev nD) (t : Fin cfg2.N) : iblk2 V c 2 t = V c main_v8 := by
  funext y
  show V c main_v8 (((cfg2.win 2).blk t).view.emb y) = V c main_v8 y
  obtain ⟨-, -, -, -, e2_0, e2_1, e3_0, e3_1, e4_0, e4_1, e5_0, e5_1, e6_0, e6_1, e7_0, e7_1, e8_0, e8_1, -⟩ := index_facts2 t
  refine congrArg (V c main_v8) ?_
  funext a; apply Fin.ext
  match a with
  | ⟨0, _⟩ => show win2_2.index t (0 : Fin 2) * 512 + 1 * (y 0).val = (y 0).val; omega
  | ⟨1, _⟩ => show win2_2.index t (1 : Fin 2) * 512 + 1 * (y 1).val = (y 1).val; omega

/-- Window 3 is its whole array at every grid point. -/
theorem whole_block2_3 (c : Dev nD) (t : Fin cfg2.N) : iblk2 V c 3 t = V c main_v10 := by
  funext y
  show V c main_v10 (((cfg2.win 3).blk t).view.emb y) = V c main_v10 y
  obtain ⟨-, -, -, -, e2_0, e2_1, e3_0, e3_1, e4_0, e4_1, e5_0, e5_1, e6_0, e6_1, e7_0, e7_1, e8_0, e8_1, -⟩ := index_facts2 t
  refine congrArg (V c main_v10) ?_
  funext a; apply Fin.ext
  match a with
  | ⟨0, _⟩ => show win2_3.index t (0 : Fin 2) * 512 + 1 * (y 0).val = (y 0).val; omega
  | ⟨1, _⟩ => show win2_3.index t (1 : Fin 2) * 512 + 1 * (y 1).val = (y 1).val; omega

/-- Window 4 is its whole array at every grid point. -/
theorem whole_block2_4 (c : Dev nD) (t : Fin cfg2.N) : iblk2 V c 4 t = V c main_v11 := by
  funext y
  show V c main_v11 (((cfg2.win 4).blk t).view.emb y) = V c main_v11 y
  obtain ⟨-, -, -, -, e2_0, e2_1, e3_0, e3_1, e4_0, e4_1, e5_0, e5_1, e6_0, e6_1, e7_0, e7_1, e8_0, e8_1, -⟩ := index_facts2 t
  refine congrArg (V c main_v11) ?_
  funext a; apply Fin.ext
  match a with
  | ⟨0, _⟩ => show win2_4.index t (0 : Fin 2) * 1 + 1 * (y 0).val = (y 0).val; omega
  | ⟨1, _⟩ => show win2_4.index t (1 : Fin 2) * 512 + 1 * (y 1).val = (y 1).val; omega

/-- Window 5 is its whole array at every grid point. -/
theorem whole_block2_5 (c : Dev nD) (t : Fin cfg2.N) : iblk2 V c 5 t = V c main_v12 := by
  funext y
  show V c main_v12 (((cfg2.win 5).blk t).view.emb y) = V c main_v12 y
  obtain ⟨-, -, -, -, e2_0, e2_1, e3_0, e3_1, e4_0, e4_1, e5_0, e5_1, e6_0, e6_1, e7_0, e7_1, e8_0, e8_1, -⟩ := index_facts2 t
  refine congrArg (V c main_v12) ?_
  funext a; apply Fin.ext
  match a with
  | ⟨0, _⟩ => show win2_5.index t (0 : Fin 2) * 512 + 1 * (y 0).val = (y 0).val; omega
  | ⟨1, _⟩ => show win2_5.index t (1 : Fin 2) * 512 + 1 * (y 1).val = (y 1).val; omega

/-- Window 6 is its whole array at every grid point. -/
theorem whole_block2_6 (c : Dev nD) (t : Fin cfg2.N) : iblk2 V c 6 t = V c main_v13 := by
  funext y
  show V c main_v13 (((cfg2.win 6).blk t).view.emb y) = V c main_v13 y
  obtain ⟨-, -, -, -, e2_0, e2_1, e3_0, e3_1, e4_0, e4_1, e5_0, e5_1, e6_0, e6_1, e7_0, e7_1, e8_0, e8_1, -⟩ := index_facts2 t
  refine congrArg (V c main_v13) ?_
  funext a; apply Fin.ext
  match a with
  | ⟨0, _⟩ => show win2_6.index t (0 : Fin 2) * 1 + 1 * (y 0).val = (y 0).val; omega
  | ⟨1, _⟩ => show win2_6.index t (1 : Fin 2) * 512 + 1 * (y 1).val = (y 1).val; omega

/-- Window 7 is its whole array at every grid point. -/
theorem whole_block2_7 (c : Dev nD) (t : Fin cfg2.N) : iblk2 V c 7 t = V c main_v14 := by
  funext y
  show V c main_v14 (((cfg2.win 7).blk t).view.emb y) = V c main_v14 y
  obtain ⟨-, -, -, -, e2_0, e2_1, e3_0, e3_1, e4_0, e4_1, e5_0, e5_1, e6_0, e6_1, e7_0, e7_1, e8_0, e8_1, -⟩ := index_facts2 t
  refine congrArg (V c main_v14) ?_
  funext a; apply Fin.ext
  match a with
  | ⟨0, _⟩ => show win2_7.index t (0 : Fin 2) * 512 + 1 * (y 0).val = (y 0).val; omega
  | ⟨1, _⟩ => show win2_7.index t (1 : Fin 2) * 1 + 1 * (y 1).val = (y 1).val; omega

/-- Window 8 is its whole array at every grid point. -/
theorem whole_block2_8 (c : Dev nD) (t : Fin cfg2.N) : iblk2 V c 8 t = V c main_v15 := by
  funext y
  show V c main_v15 (((cfg2.win 8).blk t).view.emb y) = V c main_v15 y
  obtain ⟨-, -, -, -, e2_0, e2_1, e3_0, e3_1, e4_0, e4_1, e5_0, e5_1, e6_0, e6_1, e7_0, e7_1, e8_0, e8_1, -⟩ := index_facts2 t
  refine congrArg (V c main_v15) ?_
  funext a; apply Fin.ext
  match a with
  | ⟨0, _⟩ => show win2_8.index t (0 : Fin 2) * 1 + 1 * (y 0).val = (y 0).val; omega
  | ⟨1, _⟩ => show win2_8.index t (1 : Fin 2) * 1 + 1 * (y 1).val = (y 1).val; omega

/-- What a grid point writes back is its block of the scorer's column of the arrays as the region finds them. -/
theorem flushed_eq2 (c : Dev nD) (t : Fin cfg2.N) :
    (dat2 (F := Ideal) V c).flushed 9 t = ((cfg2.win 9).blk t).view.read (Elt Ideal)
      (projArr (V c main_v36) (V c main_v43) (V c main_v8) (V c main_v10) (fun j => V c main_v11 (ix2 0 j)) (V c main_v12)
          (fun j => V c main_v13 (ix2 0 j)) (fun q => V c main_v14 (ix2 q 0)) (V c main_v15 (ix2 0 0))) := by
  show (cfg2.win 9).cut (grid2.coords t) ((dat2 (F := Ideal) V c).after 9 t) = _
  rw [after2_9]
  unfold out2_9
  rw [View.canon_unit_zero zero_offsets2]
  simp only [View.ld_unit_zero (S := S2000x512) zero_offsets2, View.ld_unit_zero (S := S512x512) zero_offsets2,
    View.ld_unit_zero (S := S1x512) zero_offsets2, View.ld_unit_zero (S := S512x1) zero_offsets2,
    View.ld_unit_zero (S := S1x1) zero_offsets2]
  funext y
  obtain ⟨p, q, rfl⟩ : ∃ (p : Fin 2000) (q : Fin 1), y = ix2 p q := ⟨y 0, y 1, eq_ix2 y⟩
  obtain rfl : q = 0 := Subsingleton.elim _ _
  have hfacts := index_facts2 t
  have hlt : win2_9.index t (0 : Fin 2) * 2000 + p.val < 100000 := by
    have hp : p.val < 2000 := p.isLt
    omega
  show k2_pay1 (F := Ideal) (iblk2 V c 0 t) (iblk2 V c 1 t) (iblk2 V c 2 t) (iblk2 V c 3 t) (iblk2 V c 4 t)
      (iblk2 V c 5 t) (iblk2 V c 6 t) (iblk2 V c 7 t) (iblk2 V c 8 t) (ix2 p 0)
    = projArr (V c main_v36) (V c main_v43) (V c main_v8) (V c main_v10) (fun j => V c main_v11 (ix2 0 j)) (V c main_v12)
          (fun j => V c main_v13 (ix2 0 j)) (fun q => V c main_v14 (ix2 q 0)) (V c main_v15 (ix2 0 0)) (((cfg2.win 9).blk t).view.emb (ix2 p 0))
  refine (block_row2 (V c main_v36) (V c main_v43) (V c main_v8) (V c main_v10) (V c main_v11) (V c main_v12) (V c main_v13)
    (V c main_v14) (V c main_v15) (iblk2 V c 0 t) (iblk2 V c 1 t) (iblk2 V c 2 t) (iblk2 V c 3 t) (iblk2 V c 4 t)
    (iblk2 V c 5 t) (iblk2 V c 6 t) (iblk2 V c 7 t) (iblk2 V c 8 t) p ⟨_, hlt⟩
    (fun q => table_block2_0 V c t p q _ rfl) (fun q => table_block2_1 V c t p q _ rfl)
    (whole_block2_2 V c t) (whole_block2_3 V c t) (whole_block2_4 V c t) (whole_block2_5 V c t)
    (whole_block2_6 V c t) (whole_block2_7 V c t) (whole_block2_8 V c t)).trans ?_
  refine congrArg (projArr (V c main_v36) (V c main_v43) (V c main_v8) (V c main_v10) (fun j => V c main_v11 (ix2 0 j)) (V c main_v12)
          (fun j => V c main_v13 (ix2 0 j)) (fun q => V c main_v14 (ix2 q 0)) (V c main_v15 (ix2 0 0))) ?_
  funext a; apply Fin.ext
  match a with
  | ⟨0, _⟩ => show win2_9.index t (0 : Fin 2) * 2000 + p.val = win2_9.index t (0 : Fin 2) * 2000 + 1 * p.val; omega
  | ⟨1, _⟩ => show (0 : Nat) = win2_9.index t (1 : Fin 2) * 1 + 1 * 0; omega

/-- An index of the output column is in a grid point's block iff each coordinate is in the block's range on its axis. -/
theorem mem_blk2 (t : Fin cfg2.N) (i : S100000x1.Idx) :
    i ∈ ((cfg2.win 9).blk t).view.set ↔ ∀ a : Fin 2, win2_9.index t a * S2000x1.size a ≤ (i a).val ∧ (i a).val < win2_9.index t a * S2000x1.size a + S2000x1.size a := by
  show i ∈ ((View.whole main_v46).slice (win2_9.rect t)).set ↔ _
  rw [View.set_slice_whole, Rect.mem_set_unit]
  exact Iff.rfl

/-- The 50 blocks of 2000 rows tile the 100000 rows: row `r` is in the block of the point whose row-block index is `r / 2000`. -/
theorem cover2 (i : S100000x1.Idx) :
    ∃ t : Fin cfg2.N, (cfg2.win 9).flush t = true ∧ i ∈ ((cfg2.win 9).blk t).view.set := by
  have hi0 : (i 0).val < 100000 := (i 0).isLt
  have hi1 : (i 1).val < 1 := (i 1).isLt
  obtain ⟨t, ht⟩ := index_onto2 ⟨(i 0).val / 2000, by omega⟩
  have q0 : win2_9.index t (0 : Fin 2) = (i 0).val / 2000 := congrFun ht 0
  have q1 : win2_9.index t (1 : Fin 2) = 0 := congrFun ht 1
  refine ⟨t, flush2_9 t, ?_⟩
  rw [mem_blk2]
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 1 ≤ (i 1).val ∧ (i 1).val < win2_9.index t (1 : Fin 2) * 1 + 1; omega

/-- After the scorer's second launch its output column holds, row by row, the scorer of the two input arrays' rows, whatever
    the buffers held at entry: each grid point writes back 2000 whole rows and the 50 points' row ranges tile the 100000 rows. -/
theorem project_arr2 (c : Dev nD) :
    (dat2 (F := Ideal) V c).arrAt 9 cfg2.N
      = projArr (V c main_v36) (V c main_v43) (V c main_v8) (V c main_v10) (fun j => V c main_v11 (ix2 0 j)) (V c main_v12)
          (fun j => V c main_v13 (ix2 0 j)) (fun q => V c main_v14 (ix2 q 0)) (V c main_v15 (ix2 0 0)) :=
  (dat2 (F := Ideal) V c).arrAt_eq_of_cover 9 _ (fun t _ => flushed_eq2 V c t) (cover2)

end Cert.KernelIdeal.RegionValue

end
-- ==== Proof.LibLayout.lean ====
/-
  Two layout facts read at an index, in the style of the library's own (a shape cast reads the operand at the index
  with the same row-major position): a column [a, 1] flattened to [a] reads row i at (i, 0); and a slice of whole
  rows taken from row `o` on reads row q at row o + q.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibLayout

end
-- ==== Proof.KernelValue.lean ====
import proofs.«139685_j39737037422592_1_alg».proof.Proof.KernelRun
import proofs.«139685_j39737037422592_1_alg».proof.Proof.HostK
import proofs.«139685_j39737037422592_1_alg».proof.Proof.EncodeArr
import proofs.«139685_j39737037422592_1_alg».proof.Proof.ProjectArr1
import proofs.«139685_j39737037422592_1_alg».proof.Proof.ProjectArr2
import proofs.«139685_j39737037422592_1_alg».proof.Proof.LibLayout
import Idealize.ShloMosaic.Lib.ValueLayout

set_option maxRecDepth 16384

/-!
  The kernel program's two results as functions of the launch memory. The first launch leaves the encoder of every
  input row (the weights converted to a narrower format, which changes nothing over the extended reals, the bias
  vectors laid out as rows); the host gathers four tables of its rows; each of the other two launches leaves the
  scorer of its two tables' rows, with the first layer's matrix handed over as its upper and lower halves; a final
  reshape flattens each column of scores. Edge `e`'s entry is therefore `Cert.Spec.score` of the two gathered tables.
-/

noncomputable section

open scoped BigOperators

namespace Cert.KernelIdeal.KValue

open Cert.KernelIdeal Cert.KernelIdeal.Gen Cert.KernelIdeal.HostK Cert.KernelIdeal.RegionValue Cert.Spec Cert.LibLayout
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The encoded node table, from the launch memory. -/
def encK (c : Dev nD) : Arr 100000 512 :=
  encArr (m ((c : Thread nD τ).loc main_arg0)) (m ((c : Thread nD τ).loc main_arg5)) (fun j => (m ((c : Thread nD τ).loc main_arg6)) (ix1 j)) (m ((c : Thread nD τ).loc main_arg7)) (fun j => (m ((c : Thread nD τ).loc main_arg8)) (ix1 j)) (m ((c : Thread nD τ).loc main_arg9)) (fun j => (m ((c : Thread nD τ).loc main_arg10)) (ix1 j))

/-- A bias vector laid out as a one-row matrix reads, at column `j`, the vector's entry `j`. -/
theorem bias_row (b : (⟨1, ![512]⟩ : Shape).Idx → EReal) (h : (⟨1, ![512]⟩ : Shape).ShapeCasts ⟨2, ![1, 512]⟩) :
    (fun j : Fin 512 => shapeCast ⟨2, ![1, 512]⟩ b h (ix2 (0 : Fin 1) j)) = fun j => b (ix1 j) :=
  funext fun j => shapeCast_a_1a_apply b h 0 j

/-- Over the extended reals a change to a narrower float format is the identity. -/
theorem truncf_id {s : Shape} {φ ψ : FTy} (a : FVec Ideal s φ) (h : ψ.bits < φ.bits) : (truncf ψ a h : FVec Ideal s ψ) = a :=
  funext fun _ => rfl

/-- After the first launch the encoder's output array is the encoded table. -/
theorem enc_val (c : Dev nD) : (dat0 (V1 m ρ) c).arrAt 7 cfg0.N = encK m c := by
  refine (encode_arr (V1 m ρ) c).trans ?_
  rw [V1_arg0, V1_v0, V1_v1, V1_v2, V1_v3, V1_v4, V1_v5]
  rw [truncf_id, truncf_id, truncf_id, bias_row, bias_row, bias_row]
  rfl

/-- The scorer's value at edge `e` when its operands are the host's conversions of the argument arrays: the two
    halves of the first layer's matrix are its upper and lower 512 rows, a narrower float format changes nothing, and
    a bias vector laid out as a row or a 1 × 1 matrix reads back as itself. -/
theorem proj_args (S D : Arr 100000 512) (P1w : (⟨2, ![1024, 512]⟩ : Shape).Idx → EReal)
    (P1b P2b : (⟨1, ![512]⟩ : Shape).Idx → EReal) (P2w : Arr 512 512) (P3w : Arr 512 1) (P3b : (⟨1, ![1]⟩ : Shape).Idx → EReal)
    (h0 : (⟨2, ![1024, 512]⟩ : Shape).Slices ![0, 0] ⟨2, ![512, 512]⟩) (h1 : (⟨2, ![1024, 512]⟩ : Shape).Slices ![512, 0] ⟨2, ![512, 512]⟩)
    (hb : (⟨1, ![512]⟩ : Shape).ShapeCasts ⟨2, ![1, 512]⟩) (h3 : (⟨1, ![1]⟩ : Shape).ShapeCasts ⟨2, ![1, 1]⟩) (e : Fin 100000) :
    projArr S D (extractStridedSlice ⟨2, ![512, 512]⟩ ![0, 0] P1w h0) (extractStridedSlice ⟨2, ![512, 512]⟩ ![512, 0] P1w h1)
        (fun j => shapeCast ⟨2, ![1, 512]⟩ P1b hb (ix2 (0 : Fin 1) j)) P2w (fun j => shapeCast ⟨2, ![1, 512]⟩ P2b hb (ix2 (0 : Fin 1) j))
        (fun q => P3w (ix2 q (0 : Fin 1))) (shapeCast ⟨2, ![1, 1]⟩ P3b h3 (ix2 (0 : Fin 1) (0 : Fin 1))) (ix2 e (0 : Fin 1))
      = score S D P1w P1b P2w P2b P3w P3b e := by
  have hT : (fun (q j : Fin 512) => extractStridedSlice ⟨2, ![512, 512]⟩ ![0, 0] P1w h0 (ix2 q j))
      = fun q j => P1w (ix2 (Fin.castAdd 512 q) j) :=
    funext fun q => funext fun j => slice2_axis0_apply 0 P1w h0 q j (Fin.castAdd 512 q) (by rw [Fin.coe_castAdd, Nat.zero_add])
  have hB : (fun (q j : Fin 512) => extractStridedSlice ⟨2, ![512, 512]⟩ ![512, 0] P1w h1 (ix2 q j))
      = fun q j => P1w (ix2 (Fin.natAdd 512 q) j) :=
    funext fun q => funext fun j => slice2_axis0_apply 512 P1w h1 q j (Fin.natAdd 512 q) (Fin.coe_natAdd 512 q)
  have h3' : shapeCast ⟨2, ![1, 1]⟩ P3b h3 (ix2 (0 : Fin 1) (0 : Fin 1)) = P3b (ix1 0) := shapeCast_a_1a_apply P3b h3 0 0
  unfold projArr score
  rw [bias_row, bias_row, h3']
  show projRow _ _ (fun (q j : Fin 512) => extractStridedSlice ⟨2, ![512, 512]⟩ ![0, 0] P1w h0 (ix2 q j))
    (fun (q j : Fin 512) => extractStridedSlice ⟨2, ![512, 512]⟩ ![512, 0] P1w h1 (ix2 q j)) _ _ _ _ _ = _
  rw [hT, hB]

/-- The first result at edge `e`. -/
theorem out0_val (c : Dev nD) (e : Fin 100000) :
    W7 m ρ c (Proc.devRef .tc main_v45) (ix1 e)
      = score (Host.gather gather_S100000x512_S100000x1_S100000x512_1_0_n_n_0_1_1512 (encK m c) (selIdx (m ((c : Thread nD τ).loc main_arg1))))
          (Host.gather gather_S100000x512_S100000x1_S100000x512_1_0_n_n_0_1_1512 (encK m c) (selIdx (m ((c : Thread nD τ).loc main_arg2))))
          (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) e := by
  rw [W7_v45]
  refine (shapeCast_a1_a_apply _ _ e).trans ?_
  rw [project_arr1 (V3 m ρ) c]
  have e22 : V3 m ρ c main_v22 = _ := W3_v22 m ρ c
  have e29 : V3 m ρ c main_v29 = _ := W3_v29 m ρ c
  have e8 : V3 m ρ c main_v8 = _ := W3_v8 m ρ c
  have e10 : V3 m ρ c main_v10 = _ := W3_v10 m ρ c
  have e11 : V3 m ρ c main_v11 = _ := W3_v11 m ρ c
  have e12 : V3 m ρ c main_v12 = _ := W3_v12 m ρ c
  have e13 : V3 m ρ c main_v13 = _ := W3_v13 m ρ c
  have e14 : V3 m ρ c main_v14 = _ := W3_v14 m ρ c
  have e15 : V3 m ρ c main_v15 = _ := W3_v15 m ρ c
  rw [e22, e29, e8, e10, e11, e12, e13, e14, e15, enc_val]
  rw [truncf_id, truncf_id, truncf_id, truncf_id]
  exact proj_args _ _ (m ((c : Thread nD τ).loc main_arg11)) (m ((c : Thread nD τ).loc main_arg12)) (m ((c : Thread nD τ).loc main_arg14)) (m ((c : Thread nD τ).loc main_arg13)) (m ((c : Thread nD τ).loc main_arg15)) (m ((c : Thread nD τ).loc main_arg16)) slices_S1024x512_S512x512_0_0
    slices_S1024x512_S512x512_512_0 shapeCasts_S512_S1x512 shapeCasts_S1_S1x1 e

/-- The second result at edge `e`. -/
theorem out1_val (c : Dev nD) (e : Fin 100000) :
    W7 m ρ c (Proc.devRef .tc main_v47) (ix1 e)
      = score (Host.gather gather_S100000x512_S100000x1_S100000x512_1_0_n_n_0_1_1512 (encK m c) (selIdx (m ((c : Thread nD τ).loc main_arg3))))
          (Host.gather gather_S100000x512_S100000x1_S100000x512_1_0_n_n_0_1_1512 (encK m c) (selIdx (m ((c : Thread nD τ).loc main_arg4))))
          (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) e := by
  rw [W7_v47]
  refine (shapeCast_a1_a_apply _ _ e).trans ?_
  rw [project_arr2 (V5 m ρ) c]
  rw [V5_v36, V5_v43, V5_v8, V5_v10, V5_v11, V5_v12, V5_v13, V5_v14, V5_v15]
  rw [W3_v36, W3_v43, W3_v8, W3_v10, W3_v11, W3_v12, W3_v13, W3_v14, W3_v15, enc_val]
  rw [truncf_id, truncf_id, truncf_id, truncf_id]
  exact proj_args _ _ (m ((c : Thread nD τ).loc main_arg11)) (m ((c : Thread nD τ).loc main_arg12)) (m ((c : Thread nD τ).loc main_arg14)) (m ((c : Thread nD τ).loc main_arg13)) (m ((c : Thread nD τ).loc main_arg15)) (m ((c : Thread nD τ).loc main_arg16)) slices_S1024x512_S512x512_0_0
    slices_S1024x512_S512x512_512_0 shapeCasts_S512_S1x512 shapeCasts_S1_S1x1 e

end Cert.KernelIdeal.KValue

end
-- ==== Proof.RefValue.lean ====
import proofs.«139685_j39737037422592_1_alg».proof.Proof.Gen.ReferenceIdeal.Read
import proofs.«139685_j39737037422592_1_alg».proof.Proof.Spec
import proofs.«139685_j39737037422592_1_alg».proof.Proof.LibDotPlain
import Idealize.ShloMosaic.Lib.ValueLayout

/-!
  The reference program's stages as plain functions on the extended reals.

  The encoder is read one layer at a time: at row r and column j a layer's stage is the rectifier of the sum over q of
  the previous stage at (r, q) times the weight at (q, j), plus the bias at j; the second and third layers add the
  previous stage at (r, j). The four gathers are the gather of the encoded table at the index array with a negative
  index counted from the end. The scorer's first layer is ONE sum over the 1024 columns of the two gathered tables laid
  side by side: a column below 512 is the first table's, a column from 512 on is the second table's 512 less, so the
  sum is the first table's 512 products plus the second table's 512 products; then a second layer and a last layer
  whose weights are one column and whose bias is one number.
-/

set_option maxRecDepth 16384

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

/-- The gathered row's number for each edge, as the reference computes it: a negative index is counted from the end. -/
def selIdx (a : IVec S100000 32) : IVec S100000x1 32 :=
  broadcastInDim S100000x1 ![0] bcast_S100000_S100000x1_0
    (select (cmpi .slt a (broadcastInDim S100000 ![] bcast_S_S100000 (constantI S_ 32 0#32)))
      (addi a (broadcastInDim S100000 ![] bcast_S_S100000 (constantI S_ 32 100000#32))) a)

variable (x0 : (⟨S100000x512, .f32⟩ : BufTy).Contents (Elt Ideal)) (x1 x2 x3 x4 : (⟨S100000, .i32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x512, .f32⟩ : BufTy).Contents (Elt Ideal)) (x10 : (⟨S512, .f32⟩ : BufTy).Contents (Elt Ideal))
  (x11 : (⟨S1024x512, .f32⟩ : BufTy).Contents (Elt Ideal)) (x12 : (⟨S512, .f32⟩ : BufTy).Contents (Elt Ideal))
  (x13 : (⟨S512x512, .f32⟩ : BufTy).Contents (Elt Ideal)) (x14 : (⟨S512, .f32⟩ : BufTy).Contents (Elt Ideal))
  (x15 : (⟨S512x1, .f32⟩ : BufTy).Contents (Elt Ideal)) (x16 : (⟨S1, .f32⟩ : BufTy).Contents (Elt Ideal))

/-! ## The encoder, one layer at a time -/

/-- The maximum with the all-zero word is the rectifier. -/
theorem max_zero_word (a : Ideal .f32) :
    FloatOps.maximumf a (FloatOps.ofBits (F := Ideal) .f32 0x00000000#32) = relu a := by
  show max a (Ideal.ofBits .f32 0x00000000#32) = max a 0
  rw [Ideal.ofBits_zero_f32]

/-- The first layer at row r, column j. -/
theorem v4_at (r : Fin 100000) (j : Fin 512) :
    val_main_v4 (F := Ideal) x0 x5 x6 (ix2 r j)
      = layer (fun q => x0 (ix2 r q)) (fun q j => x5 (ix2 q j)) (fun j => x6 (ix1 j)) j := by
  rw [val_main_v4_apply, val_main_v3_apply, val_main_v0_apply, val_main_v2_apply, val_main_v1_apply,
    val_main_call0_v0_apply, val_main_call0_cst_apply, max_zero_word]
  have el : ∀ k : Fin 512, lidx_main_v0 (ix2 r j) k = ix2 r k := fun k =>
    funext fun a => Fin.ext (by match a with | ⟨0, _⟩ => rfl | ⟨1, _⟩ => rfl)
  have er : ∀ k : Fin 512, ridx_main_v0 (ix2 r j) k = ix2 k j := fun k =>
    funext fun a => Fin.ext (by match a with | ⟨0, _⟩ => rfl | ⟨1, _⟩ => rfl)
  have eb : idx_main_v1 (idx_main_v2 (ix2 r j)) = ix1 j :=
    funext fun a => Fin.ext (by match a with | ⟨0, _⟩ => rfl)
  simp only [el, er, eb]
  rfl

/-- The second layer with its residual at row r, column j. -/
theorem v10_at (r : Fin 100000) (j : Fin 512) :
    val_main_v10 (F := Ideal) x0 x5 x6 x7 x8 (ix2 r j)
      = layer (fun q => val_main_v4 (F := Ideal) x0 x5 x6 (ix2 r q)) (fun q j => x7 (ix2 q j)) (fun j => x8 (ix1 j)) j
        + val_main_v4 (F := Ideal) x0 x5 x6 (ix2 r j) := by
  rw [val_main_v10_apply, val_main_v9_apply, val_main_v8_apply, val_main_v5_apply, val_main_v7_apply, val_main_v6_apply,
    val_main_call1_v0_apply, val_main_call1_cst_apply, max_zero_word]
  have el : ∀ k : Fin 512, lidx_main_v5 (ix2 r j) k = ix2 r k := fun k =>
    funext fun a => Fin.ext (by match a with | ⟨0, _⟩ => rfl | ⟨1, _⟩ => rfl)
  have er : ∀ k : Fin 512, ridx_main_v5 (ix2 r j) k = ix2 k j := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  simp only [el, er, eb]
  rfl

/-- The third layer with its residual at row r, column j. -/
theorem v16_at (r : Fin 100000) (j : Fin 512) :
    val_main_v16 (F := Ideal) x0 x5 x6 x7 x8 x9 x10 (ix2 r j)
      = layer (fun q => val_main_v10 (F := Ideal) x0 x5 x6 x7 x8 (ix2 r q)) (fun q j => x9 (ix2 q j)) (fun j => x10 (ix1 j)) j
        + val_main_v10 (F := Ideal) x0 x5 x6 x7 x8 (ix2 r j) := by
  rw [val_main_v16_apply, val_main_v15_apply, val_main_v14_apply, val_main_v11_apply, val_main_v13_apply, val_main_v12_apply,
    val_main_call2_v0_apply, val_main_call2_cst_apply, max_zero_word]
  have el : ∀ k : Fin 512, lidx_main_v11 (ix2 r j) k = ix2 r k := fun k =>
    funext fun a => Fin.ext (by match a with | ⟨0, _⟩ => rfl | ⟨1, _⟩ => rfl)
  have er : ∀ k : Fin 512, ridx_main_v11 (ix2 r j) k = ix2 k j := fun k =>
    funext fun a => Fin.ext (by match a with | ⟨0, _⟩ => rfl | ⟨1, _⟩ => rfl)
  have eb : idx_main_v12 (idx_main_v13 (ix2 r j)) = ix1 j :=
    funext fun a => Fin.ext (by match a with | ⟨0, _⟩ => rfl)
  simp only [el, er, eb]
  rfl

/-- The reference's encoded node table is the encoder of every row of the input table. -/
theorem ref_enc : val_main_v16 (F := Ideal) x0 x5 x6 x7 x8 x9 x10
    = encArr x0 x5 (fun j => x6 (ix1 j)) x7 (fun j => x8 (ix1 j)) x9 (fun j => x10 (ix1 j)) := by
  funext i
  obtain ⟨r, j, rfl⟩ : ∃ (r : Fin 100000) (j : Fin 512), i = ix2 r j := ⟨i 0, i 1, eq_ix2 i⟩
  rw [v16_at]
  simp only [v10_at, v4_at]
  rfl

/-- The four gathered tables are the gather of the encoded table at the four index arrays. -/
theorem ref_v23 : val_main_v23 (F := Ideal) x0 x1 x5 x6 x7 x8 x9 x10
    = Host.gather gather_S100000x512_S100000x1_S100000x512_1_0_n_n_0_1_1512 (val_main_v16 (F := Ideal) x0 x5 x6 x7 x8 x9 x10) (selIdx x1) := by
  unfold val_main_v23 val_main_v22 val_main_v21 val_main_v20 val_main_v19 val_main_v18 val_main_v17 val_main_c val_main_c_0 selIdx
  rfl
theorem ref_v30 : val_main_v30 (F := Ideal) x0 x2 x5 x6 x7 x8 x9 x10
    = Host.gather gather_S100000x512_S100000x1_S100000x512_1_0_n_n_0_1_1512 (val_main_v16 (F := Ideal) x0 x5 x6 x7 x8 x9 x10) (selIdx x2) := by
  unfold val_main_v30 val_main_v29 val_main_v28 val_main_v27 val_main_v26 val_main_v25 val_main_v24 val_main_c_1 val_main_c_2 selIdx
  rfl
theorem ref_v38 : val_main_v38 (F := Ideal) x0 x3 x5 x6 x7 x8 x9 x10
    = Host.gather gather_S100000x512_S100000x1_S100000x512_1_0_n_n_0_1_1512 (val_main_v16 (F := Ideal) x0 x5 x6 x7 x8 x9 x10) (selIdx x3) := by
  unfold val_main_v38 val_main_v37 val_main_v36 val_main_v35 val_main_v34 val_main_v33 val_main_v32 val_main_c_3 val_main_c_4 selIdx
  rfl
theorem ref_v45 : val_main_v45 (F := Ideal) x0 x4 x5 x6 x7 x8 x9 x10
    = Host.gather gather_S100000x512_S100000x1_S100000x512_1_0_n_n_0_1_1512 (val_main_v16 (F := Ideal) x0 x5 x6 x7 x8 x9 x10) (selIdx x4) := by
  unfold val_main_v45 val_main_v44 val_main_v43 val_main_v42 val_main_v41 val_main_v40 val_main_v39 val_main_c_5 val_main_c_6 selIdx
  rfl

/-! ## The two gathered tables laid side by side -/

/-- A column among the first 512 of the side-by-side table is the first table's column. -/
theorem cat_castAdd (S D : (⟨S100000x512, .f32⟩ : BufTy).Contents (Elt Ideal)) (e : Fin 100000) (q : Fin 512) :
    concatenate S100000x1024 1 [⟨S100000x512, S⟩, ⟨S100000x512, D⟩] concatenates_S100000x512_S100000x512_S100000x1024_d1
      (@ix2 100000 1024 e (Fin.castAdd 512 q)) = S (ix2 e q) :=
  concatenate_pair_apply_left 1 S D concatenates_S100000x512_S100000x512_S100000x1024_d1 _ rfl _ (fun b => by
    match b with
    | ⟨0, _⟩ => rfl
    | ⟨1, _⟩ => rfl)

/-- A column among the last 512 of the side-by-side table is the second table's column, 512 less. -/
theorem cat_natAdd (S D : (⟨S100000x512, .f32⟩ : BufTy).Contents (Elt Ideal)) (e : Fin 100000) (q : Fin 512) :
    concatenate S100000x1024 1 [⟨S100000x512, S⟩, ⟨S100000x512, D⟩] concatenates_S100000x512_S100000x512_S100000x1024_d1
      (@ix2 100000 1024 e (Fin.natAdd 512 q)) = D (ix2 e q) :=
  concatenate_pair_apply_right 1 S D concatenates_S100000x512_S100000x512_S100000x1024_d1 _ rfl rfl _
    (fun b hb => by
      match b with
      | ⟨0, _⟩ => rfl
      | ⟨1, _⟩ => exact absurd rfl hb)
    (Nat.add_comm _ _)

/-- The scorer's first layer at edge e, column j: the one sum over the 1024 side-by-side entries is the sum of the two
    sums over 512. -/
theorem v51_at (e : Fin 100000) (j : Fin 512) :
    val_main_v51 (F := Ideal) x0 x1 x2 x5 x6 x7 x8 x9 x10 x11 x12 (ix2 e j)
      = projFirst (fun q => val_main_v23 (F := Ideal) x0 x1 x5 x6 x7 x8 x9 x10 (ix2 e q))
          (fun q => val_main_v30 (F := Ideal) x0 x2 x5 x6 x7 x8 x9 x10 (ix2 e q))
          (fun q j => x11 (ix2 (Fin.castAdd 512 q) j)) (fun q j => x11 (ix2 (Fin.natAdd 512 q) j))
          (fun j => x12 (ix1 j)) j := by
  rw [val_main_v51_apply, val_main_v50_apply, val_main_v47_apply, val_main_v49_apply, val_main_v48_apply,
    val_main_call3_v0_apply, val_main_call3_cst_apply, max_zero_word]
  unfold val_main_v31
  generalize val_main_v23 (F := Ideal) x0 x1 x5 x6 x7 x8 x9 x10 = S
  generalize val_main_v30 (F := Ideal) x0 x2 x5 x6 x7 x8 x9 x10 = D
  have el : ∀ k : Fin 1024, lidx_main_v47 (ix2 e j) k = ix2 e k := fun k =>
    funext fun a => Fin.ext (by match a with | ⟨0, _⟩ => rfl | ⟨1, _⟩ => rfl)
  have er : ∀ k : Fin 1024, ridx_main_v47 (ix2 e j) k = ix2 k j := fun k =>
    funext fun a => Fin.ext (by match a with | ⟨0, _⟩ => rfl | ⟨1, _⟩ => rfl)
  have eb : idx_main_v48 (idx_main_v49 (ix2 e j)) = ix1 j :=
    funext fun a => Fin.ext (by match a with | ⟨0, _⟩ => rfl)
  rw [sum_split]
  simp only [el, er, eb]
  unfold projFirst
  show relu ((_ + _) + _) = relu ((_ + _) + _)
  refine congrArg relu (congrArg (· + x12 (ix1 j)) (congrArg₂ (· + ·)
    (Finset.sum_congr rfl fun q _ => ?_) (Finset.sum_congr rfl fun q _ => ?_)))
  · exact congrArg (· * x11 (ix2 (Fin.castAdd 512 q) j)) (cat_castAdd S D e q)
  · exact congrArg (· * x11 (ix2 (Fin.natAdd 512 q) j)) (cat_natAdd S D e q)

/-- The scorer's second layer at edge e, column j. -/
theorem v56_at (e : Fin 100000) (j : Fin 512) :
    val_main_v56 (F := Ideal) x0 x1 x2 x5 x6 x7 x8 x9 x10 x11 x12 x13 x14 (ix2 e j)
      = layer (fun q => val_main_v51 (F := Ideal) x0 x1 x2 x5 x6 x7 x8 x9 x10 x11 x12 (ix2 e q)) (fun q j => x13 (ix2 q j))
          (fun j => x14 (ix1 j)) j := by
  rw [val_main_v56_apply, val_main_v55_apply, val_main_v52_apply, val_main_v54_apply, val_main_v53_apply,
    val_main_call4_v0_apply, val_main_call4_cst_apply, max_zero_word]
  have el : ∀ k : Fin 512, lidx_main_v52 (ix2 e j) k = ix2 e k := fun k =>
    funext fun a => Fin.ext (by match a with | ⟨0, _⟩ => rfl | ⟨1, _⟩ => rfl)
  have er : ∀ k : Fin 512, ridx_main_v52 (ix2 e j) k = ix2 k j := fun k =>
    funext fun a => Fin.ext (by match a with | ⟨0, _⟩ => rfl | ⟨1, _⟩ => rfl)
  have eb : idx_main_v53 (idx_main_v54 (ix2 e j)) = ix1 j :=
    funext fun a => Fin.ext (by match a with | ⟨0, _⟩ => rfl)
  simp only [el, er, eb]
  rfl

/-- The scorer's last layer at edge e: one column of weights and one bias. -/
theorem v61_at (e : Fin 100000) :
    val_main_v61 (F := Ideal) x0 x1 x2 x5 x6 x7 x8 x9 x10 x11 x12 x13 x14 x15 x16 (ix1 e)
      = (∑ q : Fin 512, val_main_v56 (F := Ideal) x0 x1 x2 x5 x6 x7 x8 x9 x10 x11 x12 x13 x14 (ix2 e q) * x15 (ix2 q 0)) + x16 (ix1 0) := by
  rw [val_main_v61_apply, val_main_v60_apply, val_main_v57_apply, val_main_v59_apply, val_main_v58_apply]
  have el : ∀ k : Fin 512, lidx_main_v57 (idx_main_v61 (ix1 e)) k = ix2 e k := fun k =>
    funext fun a => Fin.ext (by match a with | ⟨0, _⟩ => exact Nat.div_one _ | ⟨1, _⟩ => rfl)
  have er : ∀ k : Fin 512, ridx_main_v57 (idx_main_v61 (ix1 e)) k = ix2 k 0 := fun k =>
    funext fun a => Fin.ext (by match a with | ⟨0, _⟩ => rfl | ⟨1, _⟩ => rfl)
  have eb : idx_main_v58 (idx_main_v59 (idx_main_v61 (ix1 e))) = ix1 0 :=
    funext fun a => Fin.ext (by match a with | ⟨0, _⟩ => rfl)
  simp only [el, er, eb]
  rfl

/-- The reference's first result at edge `e` is the score of the two gathered rows. -/
theorem ref_out0_apply (e : Fin 100000) :
    val_main_v61 (F := Ideal) x0 x1 x2 x5 x6 x7 x8 x9 x10 x11 x12 x13 x14 x15 x16 (ix1 e)
      = score (val_main_v23 (F := Ideal) x0 x1 x5 x6 x7 x8 x9 x10) (val_main_v30 (F := Ideal) x0 x2 x5 x6 x7 x8 x9 x10)
          x11 x12 x13 x14 x15 x16 e := by
  rw [v61_at]
  simp only [v56_at, v51_at]
  rfl

/-- The scorer's first layer at edge e, column j: the one sum over the 1024 side-by-side entries is the sum of the two
    sums over 512. -/
theorem v66_at (e : Fin 100000) (j : Fin 512) :
    val_main_v66 (F := Ideal) x0 x3 x4 x5 x6 x7 x8 x9 x10 x11 x12 (ix2 e j)
      = projFirst (fun q => val_main_v38 (F := Ideal) x0 x3 x5 x6 x7 x8 x9 x10 (ix2 e q))
          (fun q => val_main_v45 (F := Ideal) x0 x4 x5 x6 x7 x8 x9 x10 (ix2 e q))
          (fun q j => x11 (ix2 (Fin.castAdd 512 q) j)) (fun q j => x11 (ix2 (Fin.natAdd 512 q) j))
          (fun j => x12 (ix1 j)) j := by
  rw [val_main_v66_apply, val_main_v65_apply, val_main_v62_apply, val_main_v64_apply, val_main_v63_apply,
    val_main_call5_v0_apply, val_main_call5_cst_apply, max_zero_word]
  unfold val_main_v46
  generalize val_main_v38 (F := Ideal) x0 x3 x5 x6 x7 x8 x9 x10 = S
  generalize val_main_v45 (F := Ideal) x0 x4 x5 x6 x7 x8 x9 x10 = D
  have el : ∀ k : Fin 1024, lidx_main_v62 (ix2 e j) k = ix2 e k := fun k =>
    funext fun a => Fin.ext (by match a with | ⟨0, _⟩ => rfl | ⟨1, _⟩ => rfl)
  have er : ∀ k : Fin 1024, ridx_main_v62 (ix2 e j) k = ix2 k j := fun k =>
    funext fun a => Fin.ext (by match a with | ⟨0, _⟩ => rfl | ⟨1, _⟩ => rfl)
  have eb : idx_main_v63 (idx_main_v64 (ix2 e j)) = ix1 j :=
    funext fun a => Fin.ext (by match a with | ⟨0, _⟩ => rfl)
  rw [sum_split]
  simp only [el, er, eb]
  unfold projFirst
  show relu ((_ + _) + _) = relu ((_ + _) + _)
  refine congrArg relu (congrArg (· + x12 (ix1 j)) (congrArg₂ (· + ·)
    (Finset.sum_congr rfl fun q _ => ?_) (Finset.sum_congr rfl fun q _ => ?_)))
  · exact congrArg (· * x11 (ix2 (Fin.castAdd 512 q) j)) (cat_castAdd S D e q)
  · exact congrArg (· * x11 (ix2 (Fin.natAdd 512 q) j)) (cat_natAdd S D e q)

/-- The scorer's second layer at edge e, column j. -/
theorem v71_at (e : Fin 100000) (j : Fin 512) :
    val_main_v71 (F := Ideal) x0 x3 x4 x5 x6 x7 x8 x9 x10 x11 x12 x13 x14 (ix2 e j)
      = layer (fun q => val_main_v66 (F := Ideal) x0 x3 x4 x5 x6 x7 x8 x9 x10 x11 x12 (ix2 e q)) (fun q j => x13 (ix2 q j))
          (fun j => x14 (ix1 j)) j := by
  rw [val_main_v71_apply, val_main_v70_apply, val_main_v67_apply, val_main_v69_apply, val_main_v68_apply,
    val_main_call6_v0_apply, val_main_call6_cst_apply, max_zero_word]
  have el : ∀ k : Fin 512, lidx_main_v67 (ix2 e j) k = ix2 e k := fun k =>
    funext fun a => Fin.ext (by match a with | ⟨0, _⟩ => rfl | ⟨1, _⟩ => rfl)
  have er : ∀ k : Fin 512, ridx_main_v67 (ix2 e j) k = ix2 k j := fun k =>
    funext fun a => Fin.ext (by match a with | ⟨0, _⟩ => rfl | ⟨1, _⟩ => rfl)
  have eb : idx_main_v68 (idx_main_v69 (ix2 e j)) = ix1 j :=
    funext fun a => Fin.ext (by match a with | ⟨0, _⟩ => rfl)
  simp only [el, er, eb]
  rfl

/-- The scorer's last layer at edge e: one column of weights and one bias. -/
theorem v76_at (e : Fin 100000) :
    val_main_v76 (F := Ideal) x0 x3 x4 x5 x6 x7 x8 x9 x10 x11 x12 x13 x14 x15 x16 (ix1 e)
      = (∑ q : Fin 512, val_main_v71 (F := Ideal) x0 x3 x4 x5 x6 x7 x8 x9 x10 x11 x12 x13 x14 (ix2 e q) * x15 (ix2 q 0)) + x16 (ix1 0) := by
  rw [val_main_v76_apply, val_main_v75_apply, val_main_v72_apply, val_main_v74_apply, val_main_v73_apply]
  have el : ∀ k : Fin 512, lidx_main_v72 (idx_main_v76 (ix1 e)) k = ix2 e k := fun k =>
    funext fun a => Fin.ext (by match a with | ⟨0, _⟩ => exact Nat.div_one _ | ⟨1, _⟩ => rfl)
  have er : ∀ k : Fin 512, ridx_main_v72 (idx_main_v76 (ix1 e)) k = ix2 k 0 := fun k =>
    funext fun a => Fin.ext (by match a with | ⟨0, _⟩ => rfl | ⟨1, _⟩ => rfl)
  have eb : idx_main_v73 (idx_main_v74 (idx_main_v76 (ix1 e))) = ix1 0 :=
    funext fun a => Fin.ext (by match a with | ⟨0, _⟩ => rfl)
  simp only [el, er, eb]
  rfl

/-- The reference's second result at edge `e` is the score of the two gathered rows. -/
theorem ref_out1_apply (e : Fin 100000) :
    val_main_v76 (F := Ideal) x0 x3 x4 x5 x6 x7 x8 x9 x10 x11 x12 x13 x14 x15 x16 (ix1 e)
      = score (val_main_v38 (F := Ideal) x0 x3 x5 x6 x7 x8 x9 x10) (val_main_v45 (F := Ideal) x0 x4 x5 x6 x7 x8 x9 x10)
          x11 x12 x13 x14 x15 x16 e := by
  rw [v76_at]
  simp only [v71_at, v66_at]
  rfl

end Cert.ReferenceIdeal.RefValue

end
-- ==== Proof.Bridge.lean ====
import proofs.«139685_j39737037422592_1_alg».proof.Proof.KernelValue
import proofs.«139685_j39737037422592_1_alg».proof.Proof.RefValue

set_option maxRecDepth 16384

/-!
  The two programs' results are one function of the arguments. Both encode every row of the input table by the same
  three layers, gather the same four tables of encoded rows (the row numbers come from the integer arguments by the same
  integer operations in both programs, so the gathered tables are equal as soon as the encoded tables are), and score
  each edge from its two rows: edge `e`'s entry of either result is `Cert.Spec.score` of the two gathered tables.
-/

noncomputable section

namespace Cert.Bridge

open Idealize.ShloMosaic Idealize.ShloMosaic.TcCoe Idealize.ShloMosaic.ValueIdx Idealize.SL.Sem
open Cert.Spec

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The reference's first result is the kernel program's, entry by entry, when the two memories agree on the arguments. -/
theorem ref_eq_kernel0 (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (c : Dev Cert.KernelIdeal.nD) (e : Fin 100000) :
    Cert.ReferenceIdeal.Value.res_main_v61 (F := Ideal) m' c (ix1 e)
      = Cert.KernelIdeal.Gen.W7 m ρ c (Proc.devRef .tc Cert.KernelIdeal.main_v45) (ix1 e) := by
  rw [Cert.ReferenceIdeal.Read.val_main_v61_eq]
  refine (Cert.ReferenceIdeal.RefValue.ref_out0_apply _ _ _ _ _ _ _ _ _ _ _ _ _ _ _ e).trans ?_
  rw [Cert.ReferenceIdeal.RefValue.ref_v23, Cert.ReferenceIdeal.RefValue.ref_v30, Cert.ReferenceIdeal.RefValue.ref_enc,
    Cert.KernelIdeal.KValue.out0_val m ρ c e]
  obtain ⟨h0, h1, h2, h3, h4, h5, h6, h7, h8, h9, h10, h11, h12, h13, h14, h15, h16⟩ := hagree c
  rw [h0, h1, h2, h5, h6, h7, h8, h9, h10, h11, h12, h13, h14, h15, h16]
  rfl

/-- The reference's second result is the kernel program's, entry by entry, when the two memories agree on the arguments. -/
theorem ref_eq_kernel1 (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) (c : Dev Cert.KernelIdeal.nD) (e : Fin 100000) :
    Cert.ReferenceIdeal.Value.res_main_v76 (F := Ideal) m' c (ix1 e)
      = Cert.KernelIdeal.Gen.W7 m ρ c (Proc.devRef .tc Cert.KernelIdeal.main_v47) (ix1 e) := by
  rw [Cert.ReferenceIdeal.Read.val_main_v76_eq]
  refine (Cert.ReferenceIdeal.RefValue.ref_out1_apply _ _ _ _ _ _ _ _ _ _ _ _ _ _ _ e).trans ?_
  rw [Cert.ReferenceIdeal.RefValue.ref_v38, Cert.ReferenceIdeal.RefValue.ref_v45, Cert.ReferenceIdeal.RefValue.ref_enc,
    Cert.KernelIdeal.KValue.out1_val m ρ c e]
  obtain ⟨h0, h1, h2, h3, h4, h5, h6, h7, h8, h9, h10, h11, h12, h13, h14, h15, h16⟩ := hagree c
  rw [h0, h3, h4, h5, h6, h7, h8, h9, h10, h11, h12, h13, h14, h15, h16]
  rfl

end Cert.Bridge

end
-- ==== Proof.lean ====
/-
  A link-prediction model on a graph of 100000 nodes and two lists of 100000 edges: an encoder of three dense layers
  of width 512 with rectifier (the second and the third with a residual) on every node's row, and a scorer of three
  dense layers (1024 → 512 → 512 → 1) on the two encoded rows of every edge. The kernel program runs the encoder as one
  launch over 50 blocks of 2000 rows, gathers the four tables of edge ends on the host, and runs the scorer as two
  launches over 50 blocks of 2000 edges, with the first layer's 1024-row matrix split into the halves that meet the
  two ends; the reference lays the two ends side by side and multiplies by the whole matrix. Over the extended reals
  a change of float format is the identity and a sum over 1024 positions is the sum over its two halves, so both
  compute `Cert.Spec.score` of the same gathered tables (Proof/Bridge.lean), edge by edge.
  The three frames are the generated ones (the reference's is its generated run with the results dropped); the
  idealization rewrote nothing, so `preserves` is trivial.
-/
import proofs.«139685_j39737037422592_1_alg».proof.Defs
import proofs.«139685_j39737037422592_1_alg».proof.Proof.Gen.Kernel
import proofs.«139685_j39737037422592_1_alg».proof.Proof.Gen.Kernel.Skeleton
import proofs.«139685_j39737037422592_1_alg».proof.Proof.Gen.Kernel.Launch
import proofs.«139685_j39737037422592_1_alg».proof.Proof.Gen.Kernel.Points
import proofs.«139685_j39737037422592_1_alg».proof.Proof.Gen.Kernel.Frame
import proofs.«139685_j39737037422592_1_alg».proof.Proof.Gen.KernelIdeal
import proofs.«139685_j39737037422592_1_alg».proof.Proof.Gen.KernelIdeal.Skeleton
import proofs.«139685_j39737037422592_1_alg».proof.Proof.Gen.KernelIdeal.Launch
import proofs.«139685_j39737037422592_1_alg».proof.Proof.Gen.KernelIdeal.Points
import proofs.«139685_j39737037422592_1_alg».proof.Proof.Gen.KernelIdeal.Frame
import proofs.«139685_j39737037422592_1_alg».proof.Proof.Gen.ReferenceIdeal
import proofs.«139685_j39737037422592_1_alg».proof.Proof.Gen.Pre_finite_inputs
import proofs.«139685_j39737037422592_1_alg».proof.Proof.Gen.ReferenceIdeal.Run
import proofs.«139685_j39737037422592_1_alg».proof.Proof.Gen.ReferenceIdeal.Read
import proofs.«139685_j39737037422592_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs run, and end with the same two arrays of scores: the kernel program's final contents of its two
    result buffers, which the reference's results equal entry by entry. -/
theorem algebraic : Cert.algebraic_KernelIdeal_ReferenceIdeal := by
  intro m ρ m' ρ' _ hagree
  refine ⟨fun c => Cert.KernelIdeal.Gen.W7 m ρ c (Proc.devRef .tc Cert.KernelIdeal.main_v45),
    fun c => Cert.KernelIdeal.Gen.W7 m ρ c (Proc.devRef .tc Cert.KernelIdeal.main_v47), ?_, ?_⟩
  · exact (θ_run Cert.KernelIdeal.defs _ _).mono (fun r h c =>
      ⟨h c _ (Cert.KernelIdeal.Gen.mem_uc Cert.KernelIdeal.main_v45 (by decide)),
      h c _ (Cert.KernelIdeal.Gen.mem_uc Cert.KernelIdeal.main_v47 (by decide)),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c),
      (h c _ (Cert.KernelIdeal.Gen.mem_uc Cert.KernelIdeal.main_arg11 (by decide))).trans (Cert.KernelIdeal.Gen.W7_main_arg11 m ρ c),
      (h c _ (Cert.KernelIdeal.Gen.mem_uc Cert.KernelIdeal.main_arg12 (by decide))).trans (Cert.KernelIdeal.Gen.W7_main_arg12 m ρ c),
      (h c _ (Cert.KernelIdeal.Gen.mem_uc Cert.KernelIdeal.main_arg13 (by decide))).trans (Cert.KernelIdeal.Gen.W7_main_arg13 m ρ c),
      (h c _ (Cert.KernelIdeal.Gen.mem_uc Cert.KernelIdeal.main_arg14 (by decide))).trans (Cert.KernelIdeal.Gen.W7_main_arg14 m ρ c),
      (h c _ (Cert.KernelIdeal.Gen.mem_uc Cert.KernelIdeal.main_arg15 (by decide))).trans (Cert.KernelIdeal.Gen.W7_main_arg15 m ρ c),
      (h c _ (Cert.KernelIdeal.Gen.mem_uc Cert.KernelIdeal.main_arg16 (by decide))).trans (Cert.KernelIdeal.Gen.W7_main_arg16 m ρ c)⟩)
      (Cert.KernelIdeal.RunAll.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · funext i
      obtain ⟨e, rfl⟩ : ∃ e : Fin 100000, i = ix1 e := ⟨i 0, eq_ix1 i⟩
      exact Cert.Bridge.ref_eq_kernel0 m ρ m' hagree c e
    · funext i
      obtain ⟨e, rfl⟩ : ∃ e : Fin 100000, i = ix1 e := ⟨i 0, eq_ix1 i⟩
      exact Cert.Bridge.ref_eq_kernel1 m ρ m' hagree c e

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
